-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S512x64 : Shape := ⟨2, ![512, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S8192x64 .f32) (main_arg1 : FVec F S512x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S8192x64 : Shape := ⟨2, ![8192, 64]⟩
abbrev S512x64 : Shape := ⟨2, ![512, 64]⟩
abbrev S64x512 : Shape := ⟨2, ![64, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S8192x512 : Shape := ⟨2, ![8192, 512]⟩
abbrev S2x1x512 : Shape := ⟨3, ![2, 1, 512]⟩
abbrev S2x1x1 : Shape := ⟨3, ![2, 1, 1]⟩
abbrev S2048x64 : Shape := ⟨2, ![2048, 64]⟩
abbrev S2048x512 : Shape := ⟨2, ![2048, 512]⟩
abbrev S1x1x512 : Shape := ⟨3, ![1, 1, 512]⟩
abbrev S1x1x1 : Shape := ⟨3, ![1, 1, 1]⟩
abbrev S1x1 : Shape := ⟨2, ![1, 1]⟩
abbrev S2048 : Shape := ⟨1, ![2048]⟩
abbrev S2048x1 : Shape := ⟨2, ![2048, 1]⟩
abbrev S1 : Shape := ⟨1, ![1]⟩
abbrev S2x512 : Shape := ⟨2, ![2, 512]⟩
abbrev S2 : Shape := ⟨1, ![2]⟩

abbrev nBuf : Space → Nat
  | .hbm => 23
  | .vmem => 12
  | .smem => 0
  | _ => 0

abbrev bufTy : (tb : Table) → Fin (tcTables nBuf tb) → BufTy
  | .hbm, ⟨0, _⟩ => ⟨S8192x64, .f32⟩
  | .hbm, ⟨1, _⟩ => ⟨S512x64, .f32⟩
  | .hbm, ⟨2, _⟩ => ⟨S64x512, .f32⟩
  | .hbm, ⟨3, _⟩ => ⟨S512x64, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S1x512, .f32⟩
  | .hbm, ⟨8, _⟩ => ⟨S8192x512, .f32⟩
  | .hbm, ⟨9, _⟩ => ⟨S2x1x512, .f32⟩
  | .hbm, ⟨10, _⟩ => ⟨S2x1x1, .f32⟩
  | .hbm, ⟨11, _⟩ => ⟨S2x512, .f32⟩
  | .hbm, ⟨12, _⟩ => ⟨S_, .f32⟩
  | .hbm, ⟨13, _⟩ => ⟨S512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S64x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S1x1x512, .f32⟩
  | .local _ .vmem, ⟨7, _⟩ => ⟨S1x1x512, .f32⟩
  | .local _ .vmem, ⟨8, _⟩ => ⟨S1x1x1, .f32⟩
  | .local _ .vmem, ⟨9, _⟩ => ⟨S1x1x1, .f32⟩
  | .local _ .vmem, ⟨10, _⟩ => ⟨S1x512, .f32⟩
  | .local _ .vmem, ⟨11, _⟩ => ⟨S1x1, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v40 : BitVec 1 := Scalar.cmpi .eq arg1 c1_i32
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S512x64_S64x512_1_0 : S512x64.Transposes [1, 0] S64x512
  reducesTo_S512x64_S512_d1 : S512x64.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x64_S2048x64_0_0 : ∀ a, (![0, 0] : Fin 2 → Nat) a + S2048x64.size a ≤ S2048x64.size a
  h_S2048x64 : 0 < S2048x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  reduces_S2048x64_S2048 : S2048x64.Reduces [1] S2048
  shapeCasts_S2048_S2048x1 : S2048.ShapeCasts S2048x1
  bitsLt_bf16_f32 : FTy.bits .bf16 < FTy.bits .f32
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  reduces_S2048x512_S512 : S2048x512.Reduces [0] S512
  shapeCasts_S512_S1x512 : S512.ShapeCasts S1x512
  reduces_S2048x512_S2048 : S2048x512.Reduces [1] S2048
  reduces_S2048x1_S1 : S2048x1.Reduces [0] S1
  shapeCasts_S1_S1x1 : S1.ShapeCasts S1x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S2x1x512_S2x512 : S2x1x512.ShapeCasts S2x512
  reducesTo_S2x512_S512_d0 : S2x512.ReducesTo [0] S512
  reducesTo_S512_S_d0 : S512.ReducesTo [0] S_
  shapeCasts_S2x1x1_S2 : S2x1x1.ShapeCasts S2
  reducesTo_S2_S_d0 : S2.ReducesTo [0] S_
  dot_S2048x64_S64x512_S2048x512_1_0_0_1_n_n_wf : DotDims.WF S2048x64 S64x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x512.size a
  hwx0_3 : ∀ i : grid0.Coords, EltTy.bits .f32 = 32 ∨ (Rect.block (s := S8192x512) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x64 : Shape := ⟨2, ![8192, 64]⟩
abbrev S512x64 : Shape := ⟨2, ![512, 64]⟩
abbrev S8192x1x64 : Shape := ⟨3, ![8192, 1, 64]⟩
abbrev S1x512x64 : Shape := ⟨3, ![1, 512, 64]⟩
abbrev S8192x512x64 : Shape := ⟨3, ![8192, 512, 64]⟩
abbrev S_ : Shape := ⟨0, ![]⟩
abbrev S8192x512 : Shape := ⟨2, ![8192, 512]⟩
abbrev S512 : Shape := ⟨1, ![512]⟩
abbrev S8192 : Shape := ⟨1, ![8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S512x64, .f32⟩
  | .hbm, ⟨2, _⟩ => ⟨S8192x1x64, .f32⟩
  | .hbm, ⟨3, _⟩ => ⟨S1x512x64, .f32⟩
  | .hbm, ⟨4, _⟩ => ⟨S8192x512x64, .f32⟩
  | .hbm, ⟨5, _⟩ => ⟨S8192x512x64, .f32⟩
  | .hbm, ⟨6, _⟩ => ⟨S8192x512x64, .f32⟩
  | .hbm, ⟨7, _⟩ => ⟨S8192x512x64, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S512, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S8192x64_S8192x1x64_0_2 : S8192x64.BroadcastsInDim S8192x1x64 (![0, 2] : Fin 2 → Fin S8192x1x64.rank)
  bcast_S512x64_S1x512x64_1_2 : S512x64.BroadcastsInDim S1x512x64 (![1, 2] : Fin 2 → Fin S1x512x64.rank)
  bcast_S8192x1x64_S8192x512x64_0_1_2 : S8192x1x64.BroadcastsInDim S8192x512x64 (![0, 1, 2] : Fin 3 → Fin S8192x512x64.rank)
  bcast_S1x512x64_S8192x512x64_0_1_2 : S1x512x64.BroadcastsInDim S8192x512x64 (![0, 1, 2] : Fin 3 → Fin S8192x512x64.rank)
  reducesTo_S8192x512x64_S8192x512_d2 : S8192x512x64.ReducesTo [2] S8192x512
  h_S_ : 0 < S_.numel
  reducesTo_S8192x512_S512_d0 : S8192x512.ReducesTo [0] S512
  reducesTo_S512_S_d0 : S512.ReducesTo [0] S_
  reducesTo_S8192x512_S8192_d1 : S8192x512.ReducesTo [1] S8192
  reducesTo_S8192_S_d0 : S8192.ReducesTo [0] S_

variable [Facts₀]

class Facts : Prop extends Facts₀ where

variable [Facts]
-- ==== Proof.KPieces.lean ====
/-
  What one grid point leaves in each buffer it stores into, as the body's pure functions of what it loaded.
  At the first point of a core (case A) the two carried buffers are reset before they are joined with the tile;
  at the second point (case B) they are joined with what the first point left, and copied out.
-/
import proofs.«147764_j11802570129617_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S2048x64 .f32) (harg2 : arg2.IsWhole) (arg3 : Memref sig .tc .vmem S64x512 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S1x1x512 .f32) (harg6 : arg6.IsWhole) (arg7 : Memref sig .tc .vmem S1x1x1 .f32) (harg7 : arg7.IsWhole) (arg8 : Memref sig .tc .vmem S1x512 .f32) (harg8 : arg8.IsWhole) (arg9 : Memref sig .tc .vmem S1x1 .f32) (harg9 : arg9.IsWhole)

/-- Case A, the distances' buffer: the tile of distances. -/
theorem out_A_3 (hc0 : cond0_0 i) (hc1 : ¬cond0_1 i) (x0 : Vec F S2048x64 .f32) (x1 : Vec F S64x512 .f32) (x2 : Vec F S1x512 .f32) :
    out0_A_3 c i arg2 harg2 arg3 harg3 arg4 harg4 arg5 harg5 arg6 harg6 arg7 harg7 arg8 harg8 arg9 harg9 hc0 hc1 x0 x1 x2 = k0_pay6 x0 x1 x2 := by
  unfold out0_A_3
  rw [View.read_writes_eq_canon _ _ _ (cover0_A_3 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_unit_zero hz2]
  simp only [View.readAt_eq_ld, harg2.read_unread, harg3.read_unread, harg4.read_unread, harg8.read_unread, harg9.read_unread, View.ld_unit_zero (S := S2048x64) hz2, View.ld_unit_zero (S := S64x512) hz2, View.ld_unit_zero (S := S1x512) hz2, View.ld_unit_zero (S := S1x1) hz2]

/-- Case A, the carried row: the reset value joined with the tile's column minima. -/
theorem sout_A_0 (hc0 : cond0_0 i) (hc1 : ¬cond0_1 i) (x0 : Vec F S2048x64 .f32) (x1 : Vec F S64x512 .f32) (x2 : Vec F S1x512 .f32) :
    sout0_A_0 c i arg2 harg2 arg3 harg3 arg4 harg4 arg5 harg5 arg6 harg6 arg7 harg7 arg8 harg8 arg9 harg9 hc0 hc1 x0 x1 x2 = k0_pay7 x0 x1 x2 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x512) hz2, View.readCov_unit_zero (S := S1x512) _ hz2]
  simp only [View.readAt_eq_ld, harg2.read_unread, harg3.read_unread, harg4.read_unread, harg8.read_unread, harg9.read_unread, View.ld_unit_zero (S := S2048x64) hz2, View.ld_unit_zero (S := S64x512) hz2, View.ld_unit_zero (S := S1x512) hz2, View.ld_unit_zero (S := S1x1) hz2]

/-- Case A, the carried cell: the reset value plus the tile's sum of row minima. -/
theorem sout_A_1 (hc0 : cond0_0 i) (hc1 : ¬cond0_1 i) (x0 : Vec F S2048x64 .f32) (x1 : Vec F S64x512 .f32) (x2 : Vec F S1x512 .f32) :
    sout0_A_1 c i arg2 harg2 arg3 harg3 arg4 harg4 arg5 harg5 arg6 harg6 arg7 harg7 arg8 harg8 arg9 harg9 hc0 hc1 x0 x1 x2 = k0_pay1 (k0_pay8 x0 x1 x2) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg8.read_unread, harg9.read_unread, View.ld_unit_zero (S := S2048x64) hz2, View.ld_unit_zero (S := S64x512) hz2, View.ld_unit_zero (S := S1x512) hz2, View.ld_unit_zero (S := S1x1) hz2]

/-- Case B, the distances' buffer: the tile of distances. -/
theorem out_B_3 (hc0 : ¬cond0_0 i) (hc1 : cond0_1 i) (x0 : Vec F S2048x64 .f32) (x1 : Vec F S64x512 .f32) (x2 : Vec F S1x512 .f32) (xs0 : Vec F S1x512 .f32) (xs1 : Vec F S1x1 .f32) :
    out0_B_3 c i arg2 harg2 arg3 harg3 arg4 harg4 arg5 harg5 arg6 harg6 arg7 harg7 arg8 harg8 arg9 harg9 hc0 hc1 x0 x1 x2 xs0 xs1 = k0_pay6 x0 x1 x2 := by
  unfold out0_B_3
  rw [View.read_writes_eq_canon _ _ _ (cover0_B_3 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz2]
  simp only [View.readAt_eq_ld, harg2.read_unread, harg3.read_unread, harg4.read_unread, harg8.read_unread, harg9.read_unread, View.ld_unit_zero (S := S2048x64) hz2, View.ld_unit_zero (S := S64x512) hz2, View.ld_unit_zero (S := S1x512) hz2, View.ld_unit_zero (S := S1x1) hz2]

/-- Case B, the carried row: what the point before left, joined with the tile's column minima. -/
theorem sout_B_0 (hc0 : ¬cond0_0 i) (hc1 : cond0_1 i) (x0 : Vec F S2048x64 .f32) (x1 : Vec F S64x512 .f32) (x2 : Vec F S1x512 .f32) (xs0 : Vec F S1x512 .f32) (xs1 : Vec F S1x1 .f32) :
    sout0_B_0 c i arg2 harg2 arg3 harg3 arg4 harg4 arg5 harg5 arg6 harg6 arg7 harg7 arg8 harg8 arg9 harg9 hc0 hc1 x0 x1 x2 xs0 xs1 = k0_pay7 x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz2]
  simp only [View.readAt_eq_ld, harg2.read_unread, harg3.read_unread, harg4.read_unread, harg8.read_unread, harg9.read_unread, View.ld_unit_zero (S := S2048x64) hz2, View.ld_unit_zero (S := S64x512) hz2, View.ld_unit_zero (S := S1x512) hz2, View.ld_unit_zero (S := S1x1) hz2]

/-- Case B, the carried cell: what the point before left plus the tile's sum of row minima. -/
theorem sout_B_1 (hc0 : ¬cond0_0 i) (hc1 : cond0_1 i) (x0 : Vec F S2048x64 .f32) (x1 : Vec F S64x512 .f32) (x2 : Vec F S1x512 .f32) (xs0 : Vec F S1x512 .f32) (xs1 : Vec F S1x1 .f32) :
    sout0_B_1 c i arg2 harg2 arg3 harg3 arg4 harg4 arg5 harg5 arg6 harg6 arg7 harg7 arg8 harg8 arg9 harg9 hc0 hc1 x0 x1 x2 xs0 xs1 = k0_pay1 (k0_pay8 x0 x1 x2) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz2]
  simp only [View.readAt_eq_ld, harg2.read_unread, harg3.read_unread, harg4.read_unread, harg8.read_unread, harg9.read_unread, View.ld_unit_zero (S := S2048x64) hz2, View.ld_unit_zero (S := S64x512) hz2, View.ld_unit_zero (S := S1x512) hz2, View.ld_unit_zero (S := S1x1) hz2]

/-- Case B, the first partial result's buffer: the carried row after this point, copied out. -/
theorem out_B_4 (hc0 : ¬cond0_0 i) (hc1 : cond0_1 i) (x0 : Vec F S2048x64 .f32) (x1 : Vec F S64x512 .f32) (x2 : Vec F S1x512 .f32) (xs0 : Vec F S1x512 .f32) (xs1 : Vec F S1x1 .f32) :
    out0_B_4 c i arg2 harg2 arg3 harg3 arg4 harg4 arg5 harg5 arg6 harg6 arg7 harg7 arg8 harg8 arg9 harg9 hc0 hc1 x0 x1 x2 xs0 xs1 = k0_pay2 (k0_pay7 x0 x1 x2 xs0) := by
  unfold out0_B_4
  rw [View.read_writes_eq_canon _ _ _ (cover0_B_4 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz3, View.readCov_unit_zero (S := S1x512) _ hz2]
  simp only [View.readAt_eq_ld, harg2.read_unread, harg3.read_unread, harg4.read_unread, harg8.read_unread, harg9.read_unread, View.ld_unit_zero (S := S2048x64) hz2, View.ld_unit_zero (S := S64x512) hz2, View.ld_unit_zero (S := S1x512) hz2, View.ld_unit_zero (S := S1x1) hz2]

/-- Case B, the second partial result's buffer: the carried cell after this point, copied out. -/
theorem out_B_5 (hc0 : ¬cond0_0 i) (hc1 : cond0_1 i) (x0 : Vec F S2048x64 .f32) (x1 : Vec F S64x512 .f32) (x2 : Vec F S1x512 .f32) (xs0 : Vec F S1x512 .f32) (xs1 : Vec F S1x1 .f32) :
    out0_B_5 c i arg2 harg2 arg3 harg3 arg4 harg4 arg5 harg5 arg6 harg6 arg7 harg7 arg8 harg8 arg9 harg9 hc0 hc1 x0 x1 x2 xs0 xs1 = k0_pay3 (k0_pay1 (k0_pay8 x0 x1 x2) xs1) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 xs0 xs1)]
  unfold kernelRun0_B
  dsimp only
  sl_unfold_words
  rw [View.canon_unit_zero hz3, View.readCov_unit_zero (S := S1x1) _ hz2]
  simp only [View.readAt_eq_ld, harg2.read_unread, harg3.read_unread, harg4.read_unread, harg8.read_unread, harg9.read_unread, View.ld_unit_zero (S := S2048x64) hz2, View.ld_unit_zero (S := S64x512) hz2, View.ld_unit_zero (S := S1x512) hz2, View.ld_unit_zero (S := S1x1) hz2]

end Cert.KernelIdeal.Pieces

end
-- ==== Proof.KPoints.lean ====
/-
  What the buffers hold after each of the four grid points, in closed form.  Points 0 and 2 open a core's pair of
  tiles: the carried row and cell hold the reset values joined with that tile.  Points 1 and 3 close the pair:
  the carried row and cell hold the first tile's values joined with the second tile, and are copied out.
  The distances' buffer holds the point's own tile of distances at every point.
-/
import proofs.«147764_j11802570129617_2_alg».proof.Proof.KPieces

set_option maxRecDepth 16384

noncomputable section

namespace Cert.KernelIdeal.Points

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- The tile of X the point loads. -/
abbrev bX (c : Dev nD) (t : Fin cfg0.N) : Vec F S2048x64 .f32 := iblk m c 0 t
/-- The transposed codebook as the point loads it. -/
abbrev bT (c : Dev nD) (t : Fin cfg0.N) : Vec F S64x512 .f32 := iblk m c 1 t
/-- The squared codebook norms as the point loads them. -/
abbrev bS (c : Dev nD) (t : Fin cfg0.N) : Vec F S1x512 .f32 := iblk m c 2 t

/-- The point before. -/
def prev (t : Fin cfg0.N) : Fin cfg0.N := ⟨t.val - 1, Nat.lt_of_le_of_lt (Nat.sub_le _ _) t.isLt⟩

/-- After every point the distances' buffer holds the point's tile of distances. -/
theorem out3_eq (c : Dev nD) (t : Fin cfg0.N) :
    (outsAt0 m c t.val t.isLt).1 = k0_pay6 (bX m c t) (bT m c t) (bS m c t) := by
  have hN : t.val < 4 := lt_of_lt_of_eq t.isLt (show cfg0.N = 4 from N_0)
  by_cases h0 : t.val % 2 = 0
  · have h1 : ¬ t.val % 2 = 1 := by omega
    rw [outsAt0_A m c t h0 h1]; dsimp only
    exact out_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)
  · have h1 : t.val % 2 = 1 := by omega
    rw [outsAt0_B m c t h0 h1]; dsimp only
    exact out_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- After a core's first point the carried row is the reset value joined with the first tile. -/
theorem row_even (c : Dev nD) (t : Fin cfg0.N) (h0 : t.val % 2 = 0) :
    (outsAt0 m c t.val t.isLt).2.2.2.1 = k0_pay7 (bX m c t) (bT m c t) (bS m c t) (k0_pay4 (F := F)) := by
  have hN : t.val < 4 := lt_of_lt_of_eq t.isLt (show cfg0.N = 4 from N_0)
  have h1 : ¬ t.val % 2 = 1 := by omega
  rw [outsAt0_A m c t h0 h1]; dsimp only
  exact sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)

/-- After a core's first point the carried cell is the reset value plus the first tile's sum. -/
theorem cell_even (c : Dev nD) (t : Fin cfg0.N) (h0 : t.val % 2 = 0) :
    (outsAt0 m c t.val t.isLt).2.2.2.2 = k0_pay1 (k0_pay8 (bX m c t) (bT m c t) (bS m c t)) (k0_pay5 (F := F)) := by
  have hN : t.val < 4 := lt_of_lt_of_eq t.isLt (show cfg0.N = 4 from N_0)
  have h1 : ¬ t.val % 2 = 1 := by omega
  rw [outsAt0_A m c t h0 h1]; dsimp only
  exact sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)

/-- At a core's second point the first partial result's buffer holds the carried row of both tiles. -/
theorem out4_odd (c : Dev nD) (t : Fin cfg0.N) (h1 : t.val % 2 = 1) :
    (outsAt0 m c t.val t.isLt).2.1
      = k0_pay2 (k0_pay7 (bX m c t) (bT m c t) (bS m c t)
          (k0_pay7 (bX m c (prev t)) (bT m c (prev t)) (bS m c (prev t)) (k0_pay4 (F := F)))) := by
  have hN : t.val < 4 := lt_of_lt_of_eq t.isLt (show cfg0.N = 4 from N_0)
  have h0 : ¬ t.val % 2 = 0 := by omega
  have hp : (prev t).val % 2 = 0 := by show (t.val - 1) % 2 = 0; omega
  rw [outsAt0_B m c t h0 h1]; dsimp only
  refine (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2).trans ?_
  exact congrArg (fun z => k0_pay2 (k0_pay7 (bX m c t) (bT m c t) (bS m c t) z)) (row_even m c (prev t) hp)

/-- At a core's second point the second partial result's buffer holds the carried cell of both tiles. -/
theorem out5_odd (c : Dev nD) (t : Fin cfg0.N) (h1 : t.val % 2 = 1) :
    (outsAt0 m c t.val t.isLt).2.2.1
      = k0_pay3 (k0_pay1 (k0_pay8 (bX m c t) (bT m c t) (bS m c t))
          (k0_pay1 (k0_pay8 (bX m c (prev t)) (bT m c (prev t)) (bS m c (prev t))) (k0_pay5 (F := F)))) := by
  have hN : t.val < 4 := lt_of_lt_of_eq t.isLt (show cfg0.N = 4 from N_0)
  have h0 : ¬ t.val % 2 = 0 := by omega
  have hp : (prev t).val % 2 = 0 := by show (t.val - 1) % 2 = 0; omega
  rw [outsAt0_B m c t h0 h1]; dsimp only
  refine (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2).trans ?_
  exact congrArg (fun z => k0_pay3 (k0_pay1 (k0_pay8 (bX m c t) (bT m c t) (bS m c t)) z)) (cell_even m c (prev t) hp)

end Cert.KernelIdeal.Points

end
-- ==== Proof.Consts.lean ====
/-
  The float literals the two programs spell, as the extended reals their bit patterns denote.
  The kernel doubles the cross term by the literal 2.0; both programs start their minimum
  reductions from +inf and their sums from +0.0; the reference's second mean divides by the
  literal 8192.0 where the kernel multiplies by the literal 2^-13, the same dyadic's reciprocal.
-/
import Idealize.ShloMosaic.PureOps.Ideal

noncomputable section

namespace Cert.Consts

open Idealize.ShloMosaic

/-- The pattern of +0.0 denotes 0. -/
theorem ofBits_zero : Ideal.ofBits .f32 0x00000000#32 = 0 := by
  simp [Ideal.ofBits, Ideal.ieee]

/-- The pattern of +inf denotes the top element. -/
theorem ofBits_inf : Ideal.ofBits .f32 0x7F800000#32 = ⊤ := by
  simp [Ideal.ofBits, Ideal.ieee]

/-- The pattern of 2.0 denotes the real 2. -/
theorem ofBits_two : Ideal.ofBits .f32 0x40000000#32 = ((2 : ℝ) : EReal) := by
  simp [Ideal.ofBits, Ideal.ieee, -EReal.coe_mul]; norm_num

/-- The pattern of 8192.0 denotes the real 8192. -/
theorem ofBits_8192 : Ideal.ofBits .f32 0x46000000#32 = ((8192 : ℝ) : EReal) := by
  simp [Ideal.ofBits, Ideal.ieee, -EReal.coe_mul]; norm_num

/-- The pattern 0x39000000 denotes 2^-13, the reciprocal of 8192. -/
theorem ofBits_inv_8192 : Ideal.ofBits .f32 0x39000000#32 = ((1 / 8192 : ℝ) : EReal) := by
  simp [Ideal.ofBits, Ideal.ieee, -EReal.coe_mul]; norm_num

end Cert.Consts

end
-- ==== Proof.KPay.lean ====
/-
  The kernel body's arithmetic, read at an index over the extended reals.  One grid point loads a tile x0 of
  2048 rows of X, the transposed codebook x1 and the row x2 of squared codebook norms; it stores the tile of
  distances, joins the tile's column minima into a carried row, and adds the tile's sum of row minima into a
  carried cell.  Each stored value is one pure function of the loaded ones; here each is evaluated at an index.
-/
import proofs.«147764_j11802570129617_2_alg».proof.Proof.Gen.KernelIdeal.Skeleton
import proofs.«147764_j11802570129617_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## The layout operations of the body at an index -/

/-- A vector of `a` entries viewed as a column of `a` rows reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column of `a` rows spread over `b` columns reads, at `(p, c)`, the column at row `p`. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the 64 lanes of a row, read at row `r`. -/
theorem laneSum_apply (x : FVec Ideal S2048x64 .f32) (h : S2048x64.Reduces [1] S2048) (hφ : FKind.Formats .f32)
    (hacc : (0x00000000#32 : BitVec 32) = FKind.add.neutral .f32 hφ) (r : Fin 2048) :
    multiReduction .add [1] S2048 x 0x00000000#32 h hφ hacc (ix1 r) = ∑ k : Fin 64, x (ix2 r k) := by
  refine (Ideal.multiReduction_add_single x _ h hφ hacc (ix1 r)).trans ?_
  refine Finset.sum_congr rfl fun k _ => congrArg x ?_
  funext c
  apply Fin.ext
  match c with
  | ⟨0, _⟩ => rfl
  | ⟨1, _⟩ => rfl

/-! ## The matrix product at an index -/

/-- At output `(r, v)` the product reads the left factor on row `r` … -/
theorem dot_lhs0 (r : Fin 2048) (v : Fin 512) (q : dot_S2048x64_S64x512_S2048x512_1_0_0_1_n_n.contr.Idx) :
    (dot_S2048x64_S64x512_S2048x512_1_0_0_1_n_n.lhsIdx (ix2 r v) q (0 : Fin 2)).val = r.val := by
  simp [DotDims.lhsIdx, dot_S2048x64_S64x512_S2048x512_1_0_0_1_n_n]; rfl

/-- … at the column the contraction names, … -/
theorem dot_lhs1 (r : Fin 2048) (v : Fin 512) (q : dot_S2048x64_S64x512_S2048x512_1_0_0_1_n_n.contr.Idx) :
    (dot_S2048x64_S64x512_S2048x512_1_0_0_1_n_n.lhsIdx (ix2 r v) q (1 : Fin 2)).val = (q ⟨0, by decide⟩).val :=
  dot_S2048x64_S64x512_S2048x512_1_0_0_1_n_n.lhsIdx_val_of_single (cl := (1 : Fin 2)) rfl (ix2 r v) q

/-- … and the right factor at the row the contraction names … -/
theorem dot_rhs0 (r : Fin 2048) (v : Fin 512) (q : dot_S2048x64_S64x512_S2048x512_1_0_0_1_n_n.contr.Idx) :
    (dot_S2048x64_S64x512_S2048x512_1_0_0_1_n_n.rhsIdx (ix2 r v) q (0 : Fin 2)).val = (q ⟨0, by decide⟩).val :=
  dot_S2048x64_S64x512_S2048x512_1_0_0_1_n_n.rhsIdx_val_of_single (cr := (0 : Fin 2)) rfl (ix2 r v) q

/-- … on column `v`. -/
theorem dot_rhs1 (r : Fin 2048) (v : Fin 512) (q : dot_S2048x64_S64x512_S2048x512_1_0_0_1_n_n.contr.Idx) :
    (dot_S2048x64_S64x512_S2048x512_1_0_0_1_n_n.rhsIdx (ix2 r v) q (1 : Fin 2)).val = v.val := by
  simp [DotDims.rhsIdx, dot_S2048x64_S64x512_S2048x512_1_0_0_1_n_n]; rfl

/-- The matrix product into the zero block, at `(r, v)`: the sum over the 64 contracted coordinates of the
    products of the entries. -/
theorem matmul_ix2_apply (A : FVec Ideal S2048x64 .bf16) (B : FVec Ideal S64x512 .bf16) (r : Fin 2048) (v : Fin 512) :
    matmul dot_S2048x64_S64x512_S2048x512_1_0_0_1_n_n none A B (constant (F := Ideal) S2048x512 .f32 0x00000000#32) (ix2 r v)
      = ∑ k : Fin 64, A (ix2 r k) * B (ix2 k v) := by
  show FloatOps.matmul _ none A B _ (ix2 r v) = _
  rw [Ideal.matmul_constant_zero_apply,
    ← Equiv.sum_comp (contrEquiv1 dot_S2048x64_S64x512_S2048x512_1_0_0_1_n_n 64 rfl rfl).symm]
  refine Finset.sum_congr rfl fun k _ => ?_
  have hk := contrEquiv1_symm_val dot_S2048x64_S64x512_S2048x512_1_0_0_1_n_n 64 rfl rfl k
  have hl : dot_S2048x64_S64x512_S2048x512_1_0_0_1_n_n.lhsIdx (ix2 r v)
      ((contrEquiv1 dot_S2048x64_S64x512_S2048x512_1_0_0_1_n_n 64 rfl rfl).symm k) = ix2 r k := by
    funext ax
    apply Fin.ext
    match ax with
    | ⟨0, _⟩ => exact dot_lhs0 r v _
    | ⟨1, _⟩ => exact (dot_lhs1 r v _).trans hk
  have hr : dot_S2048x64_S64x512_S2048x512_1_0_0_1_n_n.rhsIdx (ix2 r v)
      ((contrEquiv1 dot_S2048x64_S64x512_S2048x512_1_0_0_1_n_n 64 rfl rfl).symm k) = ix2 k v := by
    funext ax
    apply Fin.ext
    match ax with
    | ⟨0, _⟩ => exact (dot_rhs0 r v _).trans hk
    | ⟨1, _⟩ => exact dot_rhs1 r v _
  rw [hl, hr]

/-! ## The two minimum reductions and the column sum at an index -/

/-- The minimum down the 2048 rows of a column, from +inf, read at column `v`. -/
theorem colMin_apply (x : FVec Ideal S2048x512 .f32) (h : S2048x512.Reduces [0] S512) (hφ : FKind.Formats .f32)
    (hacc : (0x7F800000#32 : BitVec 32) = FKind.minimumf.neutral .f32 hφ) (v : Fin 512) :
    multiReduction .minimumf [0] S512 x 0x7F800000#32 h hφ hacc (ix1 v)
      = (Finset.univ : Finset (Fin 2048)).fold min ⊤ (fun r => x (ix2 r v)) := by
  have hf : (x ∘ h.lift (ix1 v)) = fun r : Fin 2048 => x (ix2 r v) :=
    funext fun r => congrArg x (funext fun c => Fin.ext (match c with | ⟨0, _⟩ => rfl | ⟨1, _⟩ => rfl))
  refine (multiReduction_minimumf_eq_fold x _ h hφ hacc (ix1 v)).trans ?_
  refine (h.fold_filter_drop_single _ _ x (ix1 v)).trans ?_
  rw [hf]
  show Finset.fold min (Ideal.ofBits .f32 0x7F800000#32) _ _ = _
  rw [Cert.Consts.ofBits_inf]
  rfl

/-- The minimum along the 512 columns of a row, from +inf, read at row `r`. -/
theorem rowMin_apply (x : FVec Ideal S2048x512 .f32) (h : S2048x512.Reduces [1] S2048) (hφ : FKind.Formats .f32)
    (hacc : (0x7F800000#32 : BitVec 32) = FKind.minimumf.neutral .f32 hφ) (r : Fin 2048) :
    multiReduction .minimumf [1] S2048 x 0x7F800000#32 h hφ hacc (ix1 r)
      = (Finset.univ : Finset (Fin 512)).fold min ⊤ (fun v => x (ix2 r v)) := by
  have hf : (x ∘ h.lift (ix1 r)) = fun v : Fin 512 => x (ix2 r v) :=
    funext fun v => congrArg x (funext fun c => Fin.ext (match c with | ⟨0, _⟩ => rfl | ⟨1, _⟩ => rfl))
  refine (multiReduction_minimumf_eq_fold x _ h hφ hacc (ix1 r)).trans ?_
  refine (h.fold_filter_drop_single _ _ x (ix1 r)).trans ?_
  rw [hf]
  show Finset.fold min (Ideal.ofBits .f32 0x7F800000#32) _ _ = _
  rw [Cert.Consts.ofBits_inf]
  rfl

/-- The sum down the 2048 rows of a one-column block, read at its one cell. -/
theorem colSum_apply (x : FVec Ideal S2048x1 .f32) (h : S2048x1.Reduces [0] S1) (hφ : FKind.Formats .f32)
    (hacc : (0x00000000#32 : BitVec 32) = FKind.add.neutral .f32 hφ) :
    multiReduction .add [0] S1 x 0x00000000#32 h hφ hacc (ix1 (0 : Fin 1)) = ∑ r : Fin 2048, x (ix2 r (0 : Fin 1)) := by
  refine (Ideal.multiReduction_add_single x _ h hφ hacc (ix1 (0 : Fin 1))).trans ?_
  refine Finset.sum_congr rfl fun r _ => congrArg x ?_
  funext c
  apply Fin.ext
  match c with
  | ⟨0, _⟩ => rfl
  | ⟨1, _⟩ => rfl

/-- The stored distance at row r of the tile and codebook column v: the root of |x_r|² + |p_v|² - 2 x_r·p_v
    clamped at zero (the change of format before the matrix product is the identity over the extended reals). -/
theorem pay6_apply (x0 : FVec Ideal S2048x64 .f32) (x1 : FVec Ideal S64x512 .f32) (x2 : FVec Ideal S1x512 .f32)
    (r : Fin 2048) (v : Fin 512) :
    k0_pay6 (F := Ideal) x0 x1 x2 (ix2 r v)
      = Ideal.sqrt (max ((∑ k : Fin 64, x0 (ix2 r k) * x0 (ix2 r k) + x2 (ix2 (0 : Fin 1) v))
          - ((2 : ℝ) : EReal) * ∑ k : Fin 64, x0 (ix2 r k) * x1 (ix2 k v)) 0) := by
  unfold k0_pay6
  have e14 : broadcastTo S2048x512 (shapeCast S2048x1 (multiReduction .add [1] S2048 (mulf x0 x0) 0x00000000#32
      reduces_S2048x64_S2048 (.inl rfl) rfl) shapeCasts_S2048_S2048x1) broadcasts_S2048x1_S2048x512 (ix2 r v)
      = ∑ k : Fin 64, x0 (ix2 r k) * x0 (ix2 r k) :=
    (broadcastTo_a1_ab_apply _ _ r v).trans ((shapeCast_a_a1_apply _ _ r (0 : Fin 1)).trans (laneSum_apply _ _ _ _ r))
  have e15 : broadcastTo S2048x512 (shapeCast S1x512 x2 shapeCasts_S1x512_S1x512) broadcasts_S1x512_S2048x512 (ix2 r v)
      = x2 (ix2 (0 : Fin 1) v) :=
    (broadcastTo_1b_ab_apply _ _ r v).trans (congrFun (shapeCast_self x2 _) _)
  have e13 : matmul dot_S2048x64_S64x512_S2048x512_1_0_0_1_n_n none (truncf .bf16 x0 bitsLt_bf16_f32)
      (truncf .bf16 (shapeCast S64x512 x1 shapeCasts_S64x512_S64x512) bitsLt_bf16_f32)
      (constant (F := Ideal) S2048x512 .f32 0x00000000#32) (ix2 r v) = ∑ k : Fin 64, x0 (ix2 r k) * x1 (ix2 k v) := by
    rw [shapeCast_self]
    exact matmul_ix2_apply _ _ r v
  exact congrArg Ideal.sqrt (congrArg₂ max
    (congrArg₂ (· - ·) (congrArg₂ (· + ·) e14 e15) (congrArg₂ (· * ·) Cert.Consts.ofBits_two e13))
    Cert.Consts.ofBits_zero)

/-- The carried row of column minima after the point: the row found, joined with the tile's column minima. -/
theorem pay7_apply (x0 : FVec Ideal S2048x64 .f32) (x1 : FVec Ideal S64x512 .f32) (x2 : FVec Ideal S1x512 .f32)
    (acc : FVec Ideal S1x512 .f32) (v : Fin 512) :
    k0_pay7 (F := Ideal) x0 x1 x2 acc (ix2 (0 : Fin 1) v)
      = min (acc (ix2 (0 : Fin 1) v))
          ((Finset.univ : Finset (Fin 2048)).fold min ⊤ (fun r => k0_pay6 (F := Ideal) x0 x1 x2 (ix2 r v))) := by
  unfold k0_pay7
  rw [shapeCast_self]
  exact congrArg (min (acc (ix2 (0 : Fin 1) v)))
    ((shapeCast_a_1a_apply _ _ (0 : Fin 1) v).trans (colMin_apply _ _ _ _ v))

/-- The tile's sum of row minima. -/
theorem pay8_apply (x0 : FVec Ideal S2048x64 .f32) (x1 : FVec Ideal S64x512 .f32) (x2 : FVec Ideal S1x512 .f32) :
    k0_pay8 (F := Ideal) x0 x1 x2 (ix1 (0 : Fin 1))
      = ∑ r : Fin 2048, (Finset.univ : Finset (Fin 512)).fold min ⊤ (fun v => k0_pay6 (F := Ideal) x0 x1 x2 (ix2 r v)) := by
  unfold k0_pay8
  refine (colSum_apply _ _ _ _).trans (Finset.sum_congr rfl fun r _ => ?_)
  exact (shapeCast_a_a1_apply _ _ r (0 : Fin 1)).trans (rowMin_apply _ _ _ _ r)

/-- The carried cell after the point: the cell found plus the tile's sum. -/
theorem pay1_apply (s : FVec Ideal S1 .f32) (acc : FVec Ideal S1x1 .f32) :
    k0_pay1 (F := Ideal) s acc (ix2 (0 : Fin 1) (0 : Fin 1)) = acc (ix2 (0 : Fin 1) (0 : Fin 1)) + s (ix1 (0 : Fin 1)) := by
  unfold k0_pay1
  rw [shapeCast_self]
  exact congrArg (acc (ix2 (0 : Fin 1) (0 : Fin 1)) + ·) (shapeCast_a_1a_apply s _ (0 : Fin 1) (0 : Fin 1))

/-- The carried row copied out as a [1, 1, 512] block. -/
theorem pay2_apply (row : FVec Ideal S1x512 .f32) (v : Fin 512) :
    k0_pay2 (F := Ideal) row (ix3 (0 : Fin 1) (0 : Fin 1) v) = row (ix2 (0 : Fin 1) v) := by
  unfold k0_pay2
  exact shapeCast_ab_1ab_apply row _ (0 : Fin 1) (0 : Fin 1) v

/-- The carried cell copied out as a [1, 1, 1] block. -/
theorem pay3_apply (cell : FVec Ideal S1x1 .f32) :
    k0_pay3 (F := Ideal) cell (ix3 (0 : Fin 1) (0 : Fin 1) (0 : Fin 1)) = cell (ix2 (0 : Fin 1) (0 : Fin 1)) := by
  unfold k0_pay3
  exact shapeCast_ab_1ab_apply cell _ (0 : Fin 1) (0 : Fin 1) (0 : Fin 1)

/-- The carried row's reset value is +inf everywhere. -/
theorem pay4_apply (v : Fin 512) : k0_pay4 (F := Ideal) (ix2 (0 : Fin 1) v) = ⊤ := by
  unfold k0_pay4
  rw [shapeCast_self]
  exact Cert.Consts.ofBits_inf

/-- The carried cell's reset value is zero. -/
theorem pay5_apply : k0_pay5 (F := Ideal) (ix2 (0 : Fin 1) (0 : Fin 1)) = 0 := by
  unfold k0_pay5
  rw [shapeCast_self]
  exact Cert.Consts.ofBits_zero

end Cert.KernelIdeal.Pay

end
-- ==== Proof.KHost.lean ====
/-
  The host operations around the kernel launch, read at an index over the extended reals.
  Before the launch the host transposes the codebook P and sums the squares of each of its rows; after the launch
  it joins the two cores' partial results: the minimum over the cores of the column minima, summed over the
  codebook and divided by 512.0, and the sum over the cores of the row-minimum sums times 2^-13.
-/
import proofs.«147764_j11802570129617_2_alg».proof.Proof.Gen.KernelIdeal.Frame
import proofs.«147764_j11802570129617_2_alg».proof.Proof.Consts
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostVal

open Cert.KernelIdeal Cert.KernelIdeal.Gen Idealize.ShloMosaic Idealize.ShloMosaic.TcCoe Idealize.SL.Sem Idealize.ShloMosaic.ValueIdx
open scoped BigOperators

variable (m : (ℓ : Loc nD τ sig) → Buf (Elt Ideal) ℓ)

/-- The codebook P as device c holds it at the launch of the program. -/
abbrev argP (c : Dev nD) : FVec Ideal S512x64 .f32 := m ((c : Thread nD τ).loc main_arg1)
/-- The transposed codebook as the kernel launch finds it. -/
abbrev vT (c : Dev nD) : FVec Ideal S64x512 .f32 := V m c main_v0
/-- The row of squared codebook norms as the kernel launch finds it. -/
abbrev vS (c : Dev nD) : FVec Ideal S1x512 .f32 := V m c main_v4
/-- The two partial arrays after the kernel launch. -/
abbrev part1 (c : Dev nD) : FVec Ideal S2x1x512 .f32 := (dats m 0 c).arrAt 4 cfg0.N
abbrev part2 (c : Dev nD) : FVec Ideal S2x1x1 .f32 := (dats m 0 c).arrAt 5 cfg0.N

/-- The launch finds the transposed codebook: entry (k, v) is P (v, k). -/
theorem V_v0_apply (c : Dev nD) (k : Fin 64) (v : Fin 512) :
    vT m c (ix2 k v) = argP m c (ix2 v k) := by
  have e : vT m c = transpose S64x512 [1, 0] (argP m c) transposes_S512x64_S64x512_1_0 := by
    show StableHlo.after hostOps0 (fun b => m (c, b)) (Proc.devRef .tc main_v0) = _
    after_results
  rw [e]
  exact transpose_ix2_apply (argP m c) transposes_S512x64_S64x512_1_0 k v

/-- The launch finds the squared norms of the codebook rows: entry (0, v) is Σₖ P (v, k)². -/
theorem V_v4_apply (c : Dev nD) (v : Fin 512) :
    vS m c (ix2 (0 : Fin 1) v) = ∑ k : Fin 64, argP m c (ix2 v k) * argP m c (ix2 v k) := by
  have e : vS m c = transpose S1x512 [1, 0] (broadcastInDim S512x1 ![0] bcast_S512_S512x1_0
      (Host.reduceAdd (F := Ideal) (mulf (argP m c) (argP m c)) (constant (F := Ideal) S_ .f32 0x00000000#32)
        reducesTo_S512x64_S512_d1 h_S_)) transposes_S512x1_S1x512_1_0 := by
    show StableHlo.after hostOps0 (fun b => m (c, b)) (Proc.devRef .tc main_v4) = _
    after_results
  rw [e]
  generalize argP m c = P
  refine (transpose_ix2_apply _ transposes_S512x1_S1x512_1_0 (0 : Fin 1) v).trans ?_
  refine (broadcastInDim_apply _ bcast_S512_S512x1_0 _ _ (ix1 v) (fun a => match a with
    | ⟨0, _⟩ => by show v.val = if (512 : Nat) = 1 then 0 else v.val; rw [if_neg (by decide)])).trans ?_
  simp only [Host.reduceAdd, Ideal.hostReduceAdd_def]
  rw [Ideal.hostReduceAdd_single reducesTo_S512x64_S512_d1 (by decide)]
  have h0 : constant (F := Ideal) S_ .f32 0x00000000#32 (Shape.Idx.first h_S_) = 0 := Cert.Consts.ofBits_zero
  rw [h0, zero_add]
  refine Finset.sum_congr rfl fun k _ => ?_
  refine (mulf_apply P P _).trans ?_
  have hi : (Shape.Reduces.lift (by decide : S512x64.Reduces [1] S512) (ix1 v) k) = ix2 v k :=
    funext fun a => Fin.ext (by match a with | ⟨0, _⟩ => rfl | ⟨1, _⟩ => rfl)
  exact congrArg (fun i => P i * P i) hi

/-- The first scalar result as the host operations after the launch compute it from the first partial array. -/
theorem tail_v9_eq (c : Dev nD) :
    (Pipeline.afterTail₀ cfgs (dats m) 0 (V0 m) [hostOps1] c main_v9 : FVec Ideal S_ .f32)
      = Host.divf (F := Ideal)
          (Host.reduceAdd (F := Ideal)
            (Host.reduce FloatOps.minimumf (shapeCast S2x512 (part1 m c) shapeCasts_S2x1x512_S2x512)
              (constant (F := Ideal) S_ .f32 0x7F800000#32) reducesTo_S2x512_S512_d0 h_S_)
            (constant (F := Ideal) S_ .f32 0x00000000#32) reducesTo_S512_S_d0 h_S_)
          (constant (F := Ideal) S_ .f32 0x44000000#32) := by
  unfold Pipeline.afterTail₀
  show StableHlo.after hostOps1 _ (Proc.devRef .tc main_v9) = _
  after_results
  have hw : Pipeline.withArrays (cfgs 0).spec c (V0 m c) (fun w => (dats m 0 c).arrAt w (cfgs 0).N)
      (Proc.devRef .tc main_v5_1) = part1 m c :=
    Pipeline.withArrays_arr spec0 launch0.win.arr_inj c _ _ 4
  rw [hw]
  generalize part1 m c = A
  rfl

/-- The reshape of the first partial array drops its unit axis: entry (q, v) is entry (q, 0, v). -/
theorem cast_part1_apply (A : FVec Ideal S2x1x512 .f32) (q : Fin 2) (v : Fin 512) :
    shapeCast S2x512 A shapeCasts_S2x1x512_S2x512 (ix2 q v) = A (ix3 q (0 : Fin 1) v) :=
  shapeCast_apply A shapeCasts_S2x1x512_S2x512 (ix2 q v) (ix3 q (0 : Fin 1) v) (by
    rw [Shape.rowMajor_val_three, Shape.rowMajor_val_two]
    show (q.val * 1 + 0) * 512 + v.val = q.val * 512 + v.val
    omega)

/-- The minimum over the two cores, from +inf, of a [2, 512] array at column v. -/
theorem min_cores_apply (Y : FVec Ideal S2x512 .f32) (v : Fin 512) :
    Host.reduce FloatOps.minimumf Y (constant (F := Ideal) S_ .f32 0x7F800000#32) reducesTo_S2x512_S512_d0 h_S_ (ix1 v)
      = (Finset.univ : Finset (Fin 2)).fold min ⊤ (fun q => Y (ix2 q v)) := by
  rw [Host.reduce_eq_fold_single FloatOps.minimumf Y _ reducesTo_S2x512_S512_d0 (by decide) h_S_]
  have hinit : constant (F := Ideal) S_ .f32 0x7F800000#32 (Shape.Idx.first h_S_) = ⊤ := Cert.Consts.ofBits_inf
  rw [hinit]
  have hf : (Y ∘ Shape.Reduces.lift (by decide : S2x512.Reduces [0] S512) (ix1 v)) = fun q : Fin 2 => Y (ix2 q v) :=
    funext fun q => congrArg Y (funext fun a => Fin.ext (by match a with | ⟨0, _⟩ => rfl | ⟨1, _⟩ => rfl))
  exact congrArg (fun f => Finset.fold min (⊤ : EReal) f (Finset.univ : Finset (Fin 2))) hf

/-- The first scalar result read at its one index, over any contents of the first partial array. -/
theorem read_v9 (A : FVec Ideal S2x1x512 .f32) (R : Fin 2 → Fin 512 → EReal)
    (h : ∀ (q : Fin 2) (v : Fin 512), A (ix3 q (0 : Fin 1) v) = R q v) :
    Host.divf (F := Ideal)
        (Host.reduceAdd (F := Ideal)
          (Host.reduce FloatOps.minimumf (shapeCast S2x512 A shapeCasts_S2x1x512_S2x512)
            (constant (F := Ideal) S_ .f32 0x7F800000#32) reducesTo_S2x512_S512_d0 h_S_)
          (constant (F := Ideal) S_ .f32 0x00000000#32) reducesTo_S512_S_d0 h_S_)
        (constant (F := Ideal) S_ .f32 0x44000000#32)
      = fun _ => Ideal.div (∑ v : Fin 512, (Finset.univ : Finset (Fin 2)).fold min ⊤ (fun q => R q v)) (Ideal.ofBits .f32 0x44000000#32) := by
  funext i
  show Ideal.div _ (Ideal.ofBits .f32 0x44000000#32) = _
  refine congrArg (Ideal.div · (Ideal.ofBits .f32 0x44000000#32)) ?_
  simp only [Host.reduceAdd, Ideal.hostReduceAdd_def]
  rw [Ideal.hostReduceAdd_total reducesTo_S512_S_d0 (fun b => b.elim0)]
  have h0 : constant (F := Ideal) S_ .f32 0x00000000#32 (Shape.Idx.first h_S_) = 0 := Cert.Consts.ofBits_zero
  rw [h0, zero_add]
  let e1 : Fin 512 ≃ S512.Idx := ⟨fun v => ix1 v, fun j => j 0, fun _ => rfl, fun j => (eq_ix1 j).symm⟩
  rw [← Equiv.sum_comp e1]
  refine Finset.sum_congr rfl fun v _ => ?_
  refine (min_cores_apply _ v).trans ?_
  refine congrArg (fun f => Finset.fold min (⊤ : EReal) f (Finset.univ : Finset (Fin 2))) (funext fun q => ?_)
  exact (cast_part1_apply A q v).trans (h q v)

/-- The first scalar result, from what the launch leaves in the first partial array (one row of 512 per core). -/
theorem tail_v9 (c : Dev nD) (R : Fin 2 → Fin 512 → EReal)
    (h : ∀ (q : Fin 2) (v : Fin 512), part1 m c (ix3 q (0 : Fin 1) v) = R q v) :
    (Pipeline.afterTail₀ cfgs (dats m) 0 (V0 m) [hostOps1] c main_v9 : FVec Ideal S_ .f32)
      = fun _ => Ideal.div (∑ v : Fin 512, (Finset.univ : Finset (Fin 2)).fold min ⊤ (fun q => R q v)) (Ideal.ofBits .f32 0x44000000#32) := by
  rw [tail_v9_eq]
  exact read_v9 (part1 m c) R h

/-- The second scalar result as the host operations after the launch compute it from the second partial array. -/
theorem tail_v12_eq (c : Dev nD) :
    (Pipeline.afterTail₀ cfgs (dats m) 0 (V0 m) [hostOps1] c main_v12 : FVec Ideal S_ .f32)
      = mulf (F := Ideal)
          (Host.reduceAdd (F := Ideal) (shapeCast S2 (part2 m c) shapeCasts_S2x1x1_S2)
            (constant (F := Ideal) S_ .f32 0x00000000#32) reducesTo_S2_S_d0 h_S_)
          (constant (F := Ideal) S_ .f32 0x39000000#32) := by
  unfold Pipeline.afterTail₀
  show StableHlo.after hostOps1 _ (Proc.devRef .tc main_v12) = _
  after_results
  have hw : Pipeline.withArrays (cfgs 0).spec c (V0 m c) (fun w => (dats m 0 c).arrAt w (cfgs 0).N)
      (Proc.devRef .tc main_v5_2) = part2 m c :=
    Pipeline.withArrays_arr spec0 launch0.win.arr_inj c _ _ 5
  rw [hw]
  generalize part2 m c = A
  rfl

/-- The reshape of the second partial array drops its two unit axes: entry q is entry (q, 0, 0). -/
theorem cast_part2_apply (A : FVec Ideal S2x1x1 .f32) (q : Fin 2) :
    shapeCast S2 A shapeCasts_S2x1x1_S2 (ix1 q) = A (ix3 q (0 : Fin 1) (0 : Fin 1)) :=
  shapeCast_apply A shapeCasts_S2x1x1_S2 (ix1 q) (ix3 q (0 : Fin 1) (0 : Fin 1)) (by
    rw [Shape.rowMajor_val_three, Shape.rowMajor_val_one]
    show (q.val * 1 + 0) * 1 + 0 = q.val
    omega)

/-- The second scalar result read at its one index, over any contents of the second partial array. -/
theorem read_v12 (A : FVec Ideal S2x1x1 .f32) (R : Fin 2 → EReal)
    (h : ∀ q : Fin 2, A (ix3 q (0 : Fin 1) (0 : Fin 1)) = R q) :
    mulf (F := Ideal)
        (Host.reduceAdd (F := Ideal) (shapeCast S2 A shapeCasts_S2x1x1_S2)
          (constant (F := Ideal) S_ .f32 0x00000000#32) reducesTo_S2_S_d0 h_S_)
        (constant (F := Ideal) S_ .f32 0x39000000#32)
      = fun _ => (∑ q : Fin 2, R q) * Ideal.ofBits .f32 0x39000000#32 := by
  funext i
  show (_ : EReal) * Ideal.ofBits .f32 0x39000000#32 = _
  refine congrArg (· * Ideal.ofBits .f32 0x39000000#32) ?_
  simp only [Host.reduceAdd, Ideal.hostReduceAdd_def]
  rw [Ideal.hostReduceAdd_total reducesTo_S2_S_d0 (fun b => b.elim0)]
  have h0 : constant (F := Ideal) S_ .f32 0x00000000#32 (Shape.Idx.first h_S_) = 0 := Cert.Consts.ofBits_zero
  rw [h0, zero_add]
  let e1 : Fin 2 ≃ S2.Idx := ⟨fun q => ix1 q, fun j => j 0, fun _ => rfl, fun j => (eq_ix1 j).symm⟩
  rw [← Equiv.sum_comp e1]
  refine Finset.sum_congr rfl fun q _ => ?_
  exact (cast_part2_apply A q).trans (h q)

/-- The second scalar result, from what the launch leaves in the second partial array (one cell per core). -/
theorem tail_v12 (c : Dev nD) (R : Fin 2 → EReal)
    (h : ∀ q : Fin 2, part2 m c (ix3 q (0 : Fin 1) (0 : Fin 1)) = R q) :
    (Pipeline.afterTail₀ cfgs (dats m) 0 (V0 m) [hostOps1] c main_v12 : FVec Ideal S_ .f32)
      = fun _ => (∑ q : Fin 2, R q) * Ideal.ofBits .f32 0x39000000#32 := by
  rw [tail_v12_eq]
  exact read_v12 (part2 m c) R h

end Cert.KernelIdeal.HostVal

end
-- ==== Proof.Spec.lean ====
/-
  The mathematics of the pairwise Euclidean distance kernel, stated once over the two argument arrays
  X : [8192, 64] and P : [512, 64] read as extended reals.

  The reference computes d(b, v) = sqrt (Σₖ (X b k - P v k)²), then the mean over v of min_b d(b, v) and the
  mean over b of min_v d(b, v).
  The kernel computes the same distance through the expansion |x|² + |p|² - 2 x·p (clamped at zero before
  the root), takes the column minima and the sums of row minima tile by tile (four tiles of 2048 rows, two per
  core), joins the two tiles of a core in a carried accumulator, and leaves the join of the two cores and the
  final scaling to the host.  This module states both forms and the three equations between them, which hold
  when every entry of X and P is a real number.
-/
import Idealize.ShloMosaic.PureOps.Ideal
import Idealize.ShloMosaic.Lib.ValueIdx
import proofs.«147764_j11802570129617_2_alg».proof.Proof.Consts

noncomputable section

namespace Cert.Cdist

open Idealize.ShloMosaic Idealize.ShloMosaic.ValueIdx
open scoped BigOperators

abbrev SX : Shape := ⟨2, ![8192, 64]⟩
abbrev SP : Shape := ⟨2, ![512, 64]⟩

variable (X : SX.Idx → EReal) (P : SP.Idx → EReal)

/-! ## The reference's form -/

/-- The squared distance between row b of X and row v of P, as a sum of squared differences. -/
def sqDist (b : Fin 8192) (v : Fin 512) : EReal :=
  ∑ k : Fin 64, (X (ix2 b k) - P (ix2 v k)) * (X (ix2 b k) - P (ix2 v k))

/-- The distance. -/
def dist (b : Fin 8192) (v : Fin 512) : EReal := Ideal.sqrt (sqDist X P b v)

/-- The least distance from codebook row v to any row of X. -/
def colMin (v : Fin 512) : EReal := (Finset.univ : Finset (Fin 8192)).fold min ⊤ (fun b => dist X P b v)

/-- The least distance from row b of X to any codebook row. -/
def rowMin (b : Fin 8192) : EReal := (Finset.univ : Finset (Fin 512)).fold min ⊤ (fun v => dist X P b v)

/-- The mean over the codebook of the column minima (the divisor is the literal 512.0). -/
def meanColMin : EReal := Ideal.div (∑ v : Fin 512, colMin X P v) (Ideal.ofBits .f32 0x44000000#32)

/-- The mean over the batch of the row minima (the divisor is the literal 8192.0). -/
def meanRowMin : EReal := Ideal.div (∑ b : Fin 8192, rowMin X P b) (Ideal.ofBits .f32 0x46000000#32)

/-! ## The kernel's form -/

/-- The squared distance expanded: |x|² + |p|² - 2 x·p. -/
def kSq (b : Fin 8192) (v : Fin 512) : EReal :=
  (∑ k : Fin 64, X (ix2 b k) * X (ix2 b k) + ∑ k : Fin 64, P (ix2 v k) * P (ix2 v k))
    - ((2 : ℝ) : EReal) * ∑ k : Fin 64, X (ix2 b k) * P (ix2 v k)

/-- The kernel's distance: the root of the expansion clamped at zero. -/
def kDist (b : Fin 8192) (v : Fin 512) : EReal := Ideal.sqrt (max (kSq X P b v) 0)

/-- Row r of tile t is row 2048 t + r of X. -/
def tileRow (t : Fin 4) (r : Fin 2048) : Fin 8192 := ⟨2048 * t.val + r.val, by have := t.isLt; have := r.isLt; omega⟩

/-- The column minimum over one tile. -/
def tileColMin (t : Fin 4) (v : Fin 512) : EReal :=
  (Finset.univ : Finset (Fin 2048)).fold min ⊤ (fun r => kDist X P (tileRow t r) v)

/-- The sum over one tile of the row minima. -/
def tileRowMinSum (t : Fin 4) : EReal :=
  ∑ r : Fin 2048, (Finset.univ : Finset (Fin 512)).fold min ⊤ (fun v => kDist X P (tileRow t r) v)

/-- The first tile of core c. -/
def tileA (c : Fin 2) : Fin 4 := ⟨2 * c.val, by have := c.isLt; omega⟩
/-- The second tile of core c. -/
def tileB (c : Fin 2) : Fin 4 := ⟨2 * c.val + 1, by have := c.isLt; omega⟩

/-- What core c leaves for column v: its accumulator starts at +inf and takes the minimum with each of its two tiles. -/
def coreColMin (c : Fin 2) (v : Fin 512) : EReal :=
  min (min ⊤ (tileColMin X P (tileA c) v)) (tileColMin X P (tileB c) v)

/-- What core c leaves for the row minima: its accumulator starts at zero and adds each of its two tiles' sums. -/
def coreRowMinSum (c : Fin 2) : EReal :=
  (0 + tileRowMinSum X P (tileA c)) + tileRowMinSum X P (tileB c)

/-- The host's join for the first mean: the minimum over the two cores, summed over the codebook, divided by 512.0. -/
def kMeanColMin : EReal :=
  Ideal.div (∑ v : Fin 512, (Finset.univ : Finset (Fin 2)).fold min ⊤ (fun c => coreColMin X P c v)) (Ideal.ofBits .f32 0x44000000#32)

/-- The host's join for the second mean: the sum over the two cores times the literal 2^-13. -/
def kMeanRowMin : EReal :=
  (∑ c : Fin 2, coreRowMinSum X P c) * Ideal.ofBits .f32 0x39000000#32

/-! ## The equations -/

/-- Every entry of both arrays is a real number. -/
def Finite : Prop := (∀ i, ∃ r : ℝ, X i = (r : EReal)) ∧ (∀ i, ∃ r : ℝ, P i = (r : EReal))

/-! ## Auxiliary facts -/

/-- The coercion of the reals into the extended reals commutes with finite sums. -/
theorem coe_finsum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Every row lies in one of the two tiles of one of the two cores. -/
theorem row_cases (b : Fin 8192) :
    ∃ (c : Fin 2) (r : Fin 2048), b = tileRow (tileA c) r ∨ b = tileRow (tileB c) r := by
  have hb := b.isLt
  have hr : b.val % 2048 < 2048 := Nat.mod_lt _ (by norm_num)
  have hc : b.val / 4096 < 2 := by omega
  refine ⟨⟨b.val / 4096, hc⟩, ⟨b.val % 2048, hr⟩, ?_⟩
  by_cases h : b.val % 4096 < 2048
  · left; apply Fin.ext; simp only [tileRow, tileA]; omega
  · right; apply Fin.ext; simp only [tileRow, tileB]; omega

/-- The minimum over all rows is below the minimum over any one tile. -/
theorem full_le_tile (f : Fin 8192 → EReal) (t : Fin 4) :
    (Finset.univ : Finset (Fin 8192)).fold min ⊤ f
      ≤ (Finset.univ : Finset (Fin 2048)).fold min ⊤ (fun r => f (tileRow t r)) :=
  (Finset.le_fold_min _).2 ⟨le_top, fun r _ =>
    (Finset.fold_min_le _).2 (Or.inr ⟨tileRow t r, Finset.mem_univ _, le_rfl⟩)⟩

/-- The minimum over a tile is below each of its rows' values. -/
theorem tile_le (f : Fin 8192 → EReal) (t : Fin 4) (r : Fin 2048) :
    (Finset.univ : Finset (Fin 2048)).fold min ⊤ (fun r => f (tileRow t r)) ≤ f (tileRow t r) :=
  (Finset.fold_min_le _).2 (Or.inr ⟨r, Finset.mem_univ _, le_rfl⟩)

/-- Joining the tile minima core by core, each core starting from the top element, gives the
    minimum over all rows. -/
theorem fold_cores (f : Fin 8192 → EReal) :
    (Finset.univ : Finset (Fin 2)).fold min ⊤ (fun c =>
        min (min ⊤ ((Finset.univ : Finset (Fin 2048)).fold min ⊤ (fun r => f (tileRow (tileA c) r))))
          ((Finset.univ : Finset (Fin 2048)).fold min ⊤ (fun r => f (tileRow (tileB c) r))))
      = (Finset.univ : Finset (Fin 8192)).fold min ⊤ f := by
  apply le_antisymm
  · refine (Finset.le_fold_min _).2 ⟨le_top, fun b _ => ?_⟩
    obtain ⟨c, r, hb | hb⟩ := row_cases b
    · refine (Finset.fold_min_le _).2 (Or.inr ⟨c, Finset.mem_univ _, ?_⟩)
      rw [hb]
      exact (min_le_left _ _).trans ((min_le_right _ _).trans (tile_le f (tileA c) r))
    · refine (Finset.fold_min_le _).2 (Or.inr ⟨c, Finset.mem_univ _, ?_⟩)
      rw [hb]
      exact (min_le_right _ _).trans (tile_le f (tileB c) r)
  · refine (Finset.le_fold_min _).2 ⟨le_top, fun c _ => ?_⟩
    exact le_min (le_min le_top (full_le_tile f (tileA c))) (full_le_tile f (tileB c))

/-- The rows of X are the pairs of a tile and a row of that tile. -/
def tileEquiv : Fin 4 × Fin 2048 ≃ Fin 8192 where
  toFun p := tileRow p.1 p.2
  invFun b := (⟨b.val / 2048, by have := b.isLt; omega⟩, ⟨b.val % 2048, Nat.mod_lt _ (by norm_num)⟩)
  left_inv := by
    rintro ⟨t, r⟩
    have ht := t.isLt
    have hr := r.isLt
    apply Prod.ext <;> apply Fin.ext <;> simp only [tileRow] <;> omega
  right_inv := by
    intro b
    apply Fin.ext
    simp only [tileRow]
    omega

/-- The sum over all rows is the sum of the four tiles' sums, joined core by core from zero. -/
theorem sum_cores (g : Fin 8192 → EReal) :
    ∑ c : Fin 2, ((0 + ∑ r : Fin 2048, g (tileRow (tileA c) r)) + ∑ r : Fin 2048, g (tileRow (tileB c) r))
      = ∑ b : Fin 8192, g b := by
  have h1 : ∑ b : Fin 8192, g b = ∑ t : Fin 4, ∑ r : Fin 2048, g (tileRow t r) := by
    rw [← Equiv.sum_comp tileEquiv g, Fintype.sum_prod_type]
    rfl
  have hA0 : tileA 0 = 0 := rfl
  have hB0 : tileB 0 = 1 := rfl
  have hA1 : tileA 1 = 2 := rfl
  have hB1 : tileB 1 = 3 := rfl
  rw [h1, Fin.sum_univ_two, Fin.sum_univ_four, hA0, hB0, hA1, hB1, zero_add, zero_add, ← add_assoc]

/-- Over the reals the expansion is the sum of squared differences, which is not negative, so the clamp is idle. -/
theorem kDist_eq (h : Finite X P) (b : Fin 8192) (v : Fin 512) : kDist X P b v = dist X P b v := by
  obtain ⟨hX, hP⟩ := h
  choose x hx using hX
  choose p hp using hP
  have hsq : sqDist X P b v
      = ((∑ k : Fin 64, (x (ix2 b k) - p (ix2 v k)) * (x (ix2 b k) - p (ix2 v k)) : ℝ) : EReal) := by
    unfold sqDist
    rw [coe_finsum]
    refine Finset.sum_congr rfl (fun k _ => ?_)
    rw [hx, hp, ← EReal.coe_sub, ← EReal.coe_mul]
  have h1 : ∑ k : Fin 64, X (ix2 b k) * X (ix2 b k)
      = ((∑ k : Fin 64, x (ix2 b k) * x (ix2 b k) : ℝ) : EReal) := by
    rw [coe_finsum]
    refine Finset.sum_congr rfl (fun k _ => ?_)
    rw [hx, ← EReal.coe_mul]
  have h2 : ∑ k : Fin 64, P (ix2 v k) * P (ix2 v k)
      = ((∑ k : Fin 64, p (ix2 v k) * p (ix2 v k) : ℝ) : EReal) := by
    rw [coe_finsum]
    refine Finset.sum_congr rfl (fun k _ => ?_)
    rw [hp, ← EReal.coe_mul]
  have h3 : ∑ k : Fin 64, X (ix2 b k) * P (ix2 v k)
      = ((∑ k : Fin 64, x (ix2 b k) * p (ix2 v k) : ℝ) : EReal) := by
    rw [coe_finsum]
    refine Finset.sum_congr rfl (fun k _ => ?_)
    rw [hx, hp, ← EReal.coe_mul]
  have hk : kSq X P b v
      = ((∑ k : Fin 64, (x (ix2 b k) - p (ix2 v k)) * (x (ix2 b k) - p (ix2 v k)) : ℝ) : EReal) := by
    unfold kSq
    rw [h1, h2, h3, ← EReal.coe_add, ← EReal.coe_mul, ← EReal.coe_sub]
    congr 1
    rw [Finset.mul_sum, ← Finset.sum_add_distrib, ← Finset.sum_sub_distrib]
    exact Finset.sum_congr rfl (fun k _ => by ring)
  unfold kDist dist
  rw [hk, hsq]
  congr 1
  exact max_eq_left (EReal.coe_nonneg.mpr (Finset.sum_nonneg (fun k _ => mul_self_nonneg _)))

/-- The minimum over all rows is the minimum over the four tiles, however the tiles are grouped. -/
theorem kMeanColMin_eq (h : Finite X P) : kMeanColMin X P = meanColMin X P := by
  unfold kMeanColMin meanColMin
  congr 1
  refine Finset.sum_congr rfl (fun v _ => ?_)
  simp only [coreColMin, tileColMin, kDist_eq X P h]
  exact fold_cores (fun b => dist X P b v)

/-- The sum over all rows is the sum of the four tiles' sums, and dividing by 8192 is multiplying by 2^-13. -/
theorem kMeanRowMin_eq (h : Finite X P) : kMeanRowMin X P = meanRowMin X P := by
  unfold kMeanRowMin meanRowMin
  rw [Cert.Consts.ofBits_8192, Cert.Consts.ofBits_inv_8192, Ideal.div_coe (by norm_num)]
  congr 1
  simp only [coreRowMinSum, tileRowMinSum, kDist_eq X P h]
  exact sum_cores (fun b => rowMin X P b)

end Cert.Cdist

end
-- ==== Proof.KBlocks.lean ====
/-
  The blocks a grid point loads, as entries of the argument arrays.  Point t loads rows 2048 t … 2048 t + 2047 of X,
  the whole transposed codebook and the whole row of squared codebook norms; so the tile of distances it stores
  holds, at (r, v), the kernel's distance between row 2048 t + r of X and row v of P.
-/
import proofs.«147764_j11802570129617_2_alg».proof.Proof.KPoints
import proofs.«147764_j11802570129617_2_alg».proof.Proof.KPay
import proofs.«147764_j11802570129617_2_alg».proof.Proof.KHost
import proofs.«147764_j11802570129617_2_alg».proof.Proof.Spec

set_option maxRecDepth 16384

noncomputable section

namespace Cert.KernelIdeal.Blocks

open Cert.KernelIdeal Cert.KernelIdeal.Gen Cert.KernelIdeal.Points Idealize.ShloMosaic Idealize.ShloMosaic.TcCoe Idealize.SL.Sem
open Idealize.ShloMosaic.ValueIdx Cert.Cdist
open scoped BigOperators

/-- A grid point as a tile number. -/
def tOf (t : Fin cfg0.N) : Fin 4 := ⟨t.val, lt_of_lt_of_eq t.isLt (show cfg0.N = 4 from N_0)⟩

/-- The printed index maps over the grid: the tile of X and the tile of distances move with the point, the codebook
    blocks stay, and the partial results' blocks move with the core (two points per core). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val / 2 ∧ win0_4.index t (1 : Fin 3) = 0 ∧ win0_4.index t (2 : Fin 3) = 0
    ∧ win0_5.index t (0 : Fin 3) = t.val / 2 ∧ win0_5.index t (1 : Fin 3) = 0 ∧ win0_5.index t (2 : Fin 3) = 0 :=
  (by decide +kernel : ∀ t : Fin grid0.N, _)

section AnyF
variable {F : FTy → Type} [FloatOps F]
variable (m : (ℓ : Loc nD τ sig) → Buf (Elt F) ℓ)

/-- Row r of the tile loaded at point t is row 2048 t + r of X. -/
theorem bX_apply (c : Dev nD) (t : Fin cfg0.N) (r : Fin 2048) (k : Fin 64) :
    bX m c t (ix2 r k) = (V m c main_arg0 : Vec F S8192x64 .f32) (ix2 (tileRow (tOf t) r) k) := by
  obtain ⟨e0, e1, -⟩ := idx_facts t
  unfold bX iblk
  rw [View.read_apply]
  show V m c main_arg0 (((cfg0.win 0).blk t).view.emb (ix2 r k)) = V m c main_arg0 (ix2 (tileRow (tOf t) r) k)
  refine congrArg (V m c main_arg0) (funext fun a => Fin.ext ?_)
  match a with
  | ⟨0, _⟩ => show win0_0.index t (0 : Fin 2) * 2048 + 1 * r.val = 2048 * t.val + r.val; omega
  | ⟨1, _⟩ => show win0_0.index t (1 : Fin 2) * 64 + 1 * k.val = k.val; omega

/-- Every point loads the whole transposed codebook. -/
theorem bT_apply (c : Dev nD) (t : Fin cfg0.N) (k : Fin 64) (v : Fin 512) :
    bT m c t (ix2 k v) = (V m c main_v0 : Vec F S64x512 .f32) (ix2 k v) := by
  obtain ⟨-, -, e0, e1, -⟩ := idx_facts t
  unfold bT iblk
  rw [View.read_apply]
  show V m c main_v0 (((cfg0.win 1).blk t).view.emb (ix2 k v)) = V m c main_v0 (ix2 k v)
  refine congrArg (V m c main_v0) (funext fun a => Fin.ext ?_)
  match a with
  | ⟨0, _⟩ => show win0_1.index t (0 : Fin 2) * 64 + 1 * k.val = k.val; omega
  | ⟨1, _⟩ => show win0_1.index t (1 : Fin 2) * 512 + 1 * v.val = v.val; omega

/-- Every point loads the whole row of squared codebook norms. -/
theorem bS_apply (c : Dev nD) (t : Fin cfg0.N) (v : Fin 512) :
    bS m c t (ix2 (0 : Fin 1) v) = (V m c main_v4 : Vec F S1x512 .f32) (ix2 (0 : Fin 1) v) := by
  obtain ⟨-, -, -, -, e0, e1, -⟩ := idx_facts t
  unfold bS iblk
  rw [View.read_apply]
  show V m c main_v4 (((cfg0.win 2).blk t).view.emb (ix2 (0 : Fin 1) v)) = V m c main_v4 (ix2 (0 : Fin 1) v)
  refine congrArg (V m c main_v4) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 512 + 1 * v.val = v.val; omega

end AnyF

variable (m : (ℓ : Loc nD τ sig) → Buf (Elt Ideal) ℓ)

/-- The argument arrays of device c. -/
abbrev argX (c : Dev nD) : SX.Idx → EReal := m ((c : Thread nD τ).loc main_arg0)
abbrev argP (c : Dev nD) : SP.Idx → EReal := m ((c : Thread nD τ).loc main_arg1)

/-- The tile of distances stored at point t holds the kernel's distances of the tile's rows. -/
theorem tileDist (c : Dev nD) (t : Fin cfg0.N) (r : Fin 2048) (v : Fin 512) :
    k0_pay6 (F := Ideal) (bX m c t) (bT m c t) (bS m c t) (ix2 r v) = kDist (argX m c) (argP m c) (tileRow (tOf t) r) v := by
  have hx : ∀ k : Fin 64, bX m c t (ix2 r k) = argX m c (ix2 (tileRow (tOf t) r) k) :=
    fun k => (bX_apply m c t r k).trans (congrFun (V_main_arg0 m c) _)
  have ht : ∀ k : Fin 64, bT m c t (ix2 k v) = argP m c (ix2 v k) :=
    fun k => (bT_apply m c t k v).trans (Cert.KernelIdeal.HostVal.V_v0_apply m c k v)
  have hs : bS m c t (ix2 (0 : Fin 1) v) = ∑ k : Fin 64, argP m c (ix2 v k) * argP m c (ix2 v k) :=
    (bS_apply m c t v).trans (Cert.KernelIdeal.HostVal.V_v4_apply m c v)
  rw [Cert.KernelIdeal.Pay.pay6_apply]
  unfold kDist kSq
  simp only [hx, ht, hs]

end Cert.KernelIdeal.Blocks

end
-- ==== Proof.KFinal.lean ====
/-
  The three arrays the kernel launch leaves.  The distances' array is tiled by the four points' tiles.  Each
  partial array has one block per core, written back at the core's second point, when the carried row (cell)
  holds the join of the core's two tiles.
-/
import proofs.«147764_j11802570129617_2_alg».proof.Proof.KBlocks

set_option maxRecDepth 16384

noncomputable section

namespace Cert.KernelIdeal.Final

open Cert.KernelIdeal Cert.KernelIdeal.Gen Cert.KernelIdeal.Points Cert.KernelIdeal.Blocks Idealize.ShloMosaic Idealize.ShloMosaic.TcCoe Idealize.SL.Sem
open Idealize.ShloMosaic.ValueIdx Cert.Cdist
open scoped BigOperators

variable (m : (ℓ : Loc nD τ sig) → Buf (Elt Ideal) ℓ)

/-! ## The array of distances -/

/-- The array of the kernel's distances. -/
def G3 (c : Dev nD) : FVec Ideal S8192x512 .f32 :=
  fun i => kDist (argX m c) (argP m c) ⟨(i 0).val, (i 0).isLt⟩ ⟨(i 1).val, (i 1).isLt⟩

/-- Point t writes back rows 2048 t … 2048 t + 2047 of that array. -/
theorem flushed3 (c : Dev nD) (t : Fin cfg0.N) :
    (dats m 0 c).flushed 3 t = ((cfg0.win 3).blk t).view.read (Elt Ideal) (G3 m c) := by
  obtain ⟨-, -, -, -, -, -, e0, e1, -⟩ := idx_facts t
  show (cfg0.win 3).cut (grid0.coords t) ((dats m 0 c).after 3 t) = _
  rw [after0_3, out3_eq]
  refine funext fun (j : S2048x512.Idx) => ?_
  obtain ⟨r, v, rfl⟩ : ∃ (r : Fin 2048) (v : Fin 512), j = ix2 r v := ⟨j 0, j 1, eq_ix2 j⟩
  show k0_pay6 (F := Ideal) (bX m c t) (bT m c t) (bS m c t) (ix2 r v) = G3 m c (((cfg0.win 3).blk t).view.emb (ix2 r v))
  rw [tileDist]
  unfold G3
  congr 1 <;> apply Fin.ext
  · show 2048 * t.val + r.val = win0_3.index t (0 : Fin 2) * 2048 + 1 * r.val; omega
  · show v.val = win0_3.index t (1 : Fin 2) * 512 + 1 * v.val; omega

theorem mem_blk3 (t : Fin cfg0.N) (i : S8192x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v5_0).slice (win0_3.rect t)).set ↔ _
  rw [View.set_slice_whole, Rect.mem_set_unit]
  exact Iff.rfl

/-- Row b lies in the tile of point b / 2048. -/
theorem cover3 (i : S8192x512.Idx) : ∃ t : Fin cfg0.N, (cfg0.win 3).flush t = true ∧ i ∈ ((cfg0.win 3).blk t).view.set := by
  have hi0 : (i 0).val < 8192 := (i 0).isLt
  have hi1 : (i 1).val < 512 := (i 1).isLt
  obtain ⟨t, ht⟩ : ∃ t : Fin cfg0.N, t.val = (i 0).val / 2048 := ⟨⟨(i 0).val / 2048, by rw [show cfg0.N = 4 from N_0]; omega⟩, rfl⟩
  obtain ⟨-, -, -, -, -, -, e0, e1, -⟩ := idx_facts t
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- After the launch the first result array holds the kernel's distances. -/
theorem final3 (c : Dev nD) : (dats m 0 c).arrAt 3 cfg0.N = G3 m c :=
  (dats m 0 c).arrAt_eq_of_cover 3 (G3 m c) (fun t _ => flushed3 m c t) cover3

/-! ## The partial column minima -/

/-- One row of 512 per core. -/
def G4 (c : Dev nD) : FVec Ideal S2x1x512 .f32 :=
  fun i => coreColMin (argX m c) (argP m c) ⟨(i 0).val, (i 0).isLt⟩ ⟨(i 2).val, (i 2).isLt⟩

/-- A core's second point writes back the core's row. -/
theorem flushed4 (c : Dev nD) (t : Fin cfg0.N) (hf : (cfg0.win 4).flush t = true) :
    (dats m 0 c).flushed 4 t = ((cfg0.win 4).blk t).view.read (Elt Ideal) (G4 m c) := by
  have hN : t.val < 4 := lt_of_lt_of_eq t.isLt (show cfg0.N = 4 from N_0)
  have h1 : t.val % 2 = 1 := (flush0_4 t).mp hf
  obtain ⟨-, -, -, -, -, -, -, -, e0, e1, e2, -⟩ := idx_facts t
  show (cfg0.win 4).cut (grid0.coords t) ((dats m 0 c).after 4 t) = _
  rw [after0_4, out4_odd m c t h1]
  refine funext fun (j : S1x1x512.Idx) => ?_
  obtain ⟨a, b, v, rfl⟩ : ∃ (a : Fin 1) (b : Fin 1) (v : Fin 512), j = ix3 a b v := ⟨j 0, j 1, j 2, eq_ix3 j⟩
  obtain rfl : a = 0 := Subsingleton.elim _ _
  obtain rfl : b = 0 := Subsingleton.elim _ _
  show k0_pay2 (F := Ideal) (k0_pay7 (bX m c t) (bT m c t) (bS m c t)
      (k0_pay7 (bX m c (prev t)) (bT m c (prev t)) (bS m c (prev t)) (k0_pay4 (F := Ideal)))) (ix3 (0 : Fin 1) (0 : Fin 1) v)
    = G4 m c (((cfg0.win 4).blk t).view.emb (ix3 (0 : Fin 1) (0 : Fin 1) v))
  rw [Cert.KernelIdeal.Pay.pay2_apply, Cert.KernelIdeal.Pay.pay7_apply, Cert.KernelIdeal.Pay.pay7_apply, Cert.KernelIdeal.Pay.pay4_apply]
  simp only [tileDist]
  unfold G4 coreColMin tileColMin
  refine congrArg₂ min (congrArg (min ⊤) (congrArg (fun f => Finset.fold min ⊤ f Finset.univ) (funext fun r => ?_)))
    (congrArg (fun f => Finset.fold min ⊤ f Finset.univ) (funext fun r => ?_))
  · congr 1 <;> apply Fin.ext
    · show 2048 * (t.val - 1) + r.val = 2048 * (2 * (win0_4.index t (0 : Fin 3) * 1 + 1 * (0 : Fin 1).val)) + r.val
      rw [e0]; simp only [Fin.val_zero]; omega
    · show v.val = win0_4.index t (2 : Fin 3) * 512 + 1 * v.val; omega
  · congr 1 <;> apply Fin.ext
    · show 2048 * t.val + r.val = 2048 * (2 * (win0_4.index t (0 : Fin 3) * 1 + 1 * (0 : Fin 1).val) + 1) + r.val
      rw [e0]; simp only [Fin.val_zero]; omega
    · show v.val = win0_4.index t (2 : Fin 3) * 512 + 1 * v.val; omega

theorem mem_blk4 (t : Fin cfg0.N) (i : S2x1x512.Idx) :
    i ∈ ((cfg0.win 4).blk t).view.set ↔ ∀ a : Fin 3, win0_4.index t a * S1x1x512.size a ≤ (i a).val ∧ (i a).val < win0_4.index t a * S1x1x512.size a + S1x1x512.size a := by
  show i ∈ ((View.whole main_v5_1).slice (win0_4.rect t)).set ↔ _
  rw [View.set_slice_whole, Rect.mem_set_unit]
  exact Iff.rfl

/-- Core q's row is written back at point 2 q + 1. -/
theorem cover4 (i : S2x1x512.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 512 := (i 2).isLt
  obtain ⟨t, ht⟩ : ∃ t : Fin cfg0.N, t.val = 2 * (i 0).val + 1 := ⟨⟨2 * (i 0).val + 1, by rw [show cfg0.N = 4 from N_0]; omega⟩, rfl⟩
  obtain ⟨-, -, -, -, -, -, -, -, e0, e1, e2, -⟩ := idx_facts t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 512 ≤ (i 2).val ∧ (i 2).val < win0_4.index t (2 : Fin 3) * 512 + 512; omega

/-- After the launch the first partial array holds each core's column minima. -/
theorem final4 (c : Dev nD) : (dats m 0 c).arrAt 4 cfg0.N = G4 m c :=
  (dats m 0 c).arrAt_eq_of_cover 4 (G4 m c) (fun t hf => flushed4 m c t hf) cover4

/-! ## The partial sums of row minima -/

/-- One cell per core. -/
def G5 (c : Dev nD) : FVec Ideal S2x1x1 .f32 :=
  fun i => coreRowMinSum (argX m c) (argP m c) ⟨(i 0).val, (i 0).isLt⟩

/-- A core's second point writes back the core's cell. -/
theorem flushed5 (c : Dev nD) (t : Fin cfg0.N) (hf : (cfg0.win 5).flush t = true) :
    (dats m 0 c).flushed 5 t = ((cfg0.win 5).blk t).view.read (Elt Ideal) (G5 m c) := by
  have hN : t.val < 4 := lt_of_lt_of_eq t.isLt (show cfg0.N = 4 from N_0)
  have h1 : t.val % 2 = 1 := (flush0_5 t).mp hf
  obtain ⟨-, -, -, -, -, -, -, -, -, -, -, e0, e1, e2⟩ := idx_facts t
  show (cfg0.win 5).cut (grid0.coords t) ((dats m 0 c).after 5 t) = _
  rw [after0_5, out5_odd m c t h1]
  refine funext fun (j : S1x1x1.Idx) => ?_
  obtain ⟨a, b, d, rfl⟩ : ∃ (a : Fin 1) (b : Fin 1) (d : Fin 1), j = ix3 a b d := ⟨j 0, j 1, j 2, eq_ix3 j⟩
  obtain rfl : a = 0 := Subsingleton.elim _ _
  obtain rfl : b = 0 := Subsingleton.elim _ _
  obtain rfl : d = 0 := Subsingleton.elim _ _
  show k0_pay3 (F := Ideal) (k0_pay1 (k0_pay8 (bX m c t) (bT m c t) (bS m c t))
      (k0_pay1 (k0_pay8 (bX m c (prev t)) (bT m c (prev t)) (bS m c (prev t))) (k0_pay5 (F := Ideal)))) (ix3 (0 : Fin 1) (0 : Fin 1) (0 : Fin 1))
    = G5 m c (((cfg0.win 5).blk t).view.emb (ix3 (0 : Fin 1) (0 : Fin 1) (0 : Fin 1)))
  rw [Cert.KernelIdeal.Pay.pay3_apply, Cert.KernelIdeal.Pay.pay1_apply, Cert.KernelIdeal.Pay.pay1_apply, Cert.KernelIdeal.Pay.pay5_apply,
    Cert.KernelIdeal.Pay.pay8_apply, Cert.KernelIdeal.Pay.pay8_apply]
  simp only [tileDist]
  unfold G5 coreRowMinSum tileRowMinSum
  refine congrArg₂ (· + ·) (congrArg (0 + ·) (Finset.sum_congr rfl fun r _ => congrArg (fun f => Finset.fold min ⊤ f Finset.univ) (funext fun v => ?_)))
    (Finset.sum_congr rfl fun r _ => congrArg (fun f => Finset.fold min ⊤ f Finset.univ) (funext fun v => ?_))
  · congr 1; apply Fin.ext
    show 2048 * (t.val - 1) + r.val = 2048 * (2 * (win0_5.index t (0 : Fin 3) * 1 + 1 * (0 : Fin 1).val)) + r.val
    rw [e0]; simp only [Fin.val_zero]; omega
  · congr 1; apply Fin.ext
    show 2048 * t.val + r.val = 2048 * (2 * (win0_5.index t (0 : Fin 3) * 1 + 1 * (0 : Fin 1).val) + 1) + r.val
    rw [e0]; simp only [Fin.val_zero]; omega

theorem mem_blk5 (t : Fin cfg0.N) (i : S2x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v5_2).slice (win0_5.rect t)).set ↔ _
  rw [View.set_slice_whole, Rect.mem_set_unit]
  exact Iff.rfl

/-- Core q's cell is written back at point 2 q + 1. -/
theorem cover5 (i : S2x1x1.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 1 := (i 2).isLt
  obtain ⟨t, ht⟩ : ∃ t : Fin cfg0.N, t.val = 2 * (i 0).val + 1 := ⟨⟨2 * (i 0).val + 1, by rw [show cfg0.N = 4 from N_0]; omega⟩, rfl⟩
  obtain ⟨-, -, -, -, -, -, -, -, -, -, -, e0, e1, e2⟩ := idx_facts t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 1 ≤ (i 2).val ∧ (i 2).val < win0_5.index t (2 : Fin 3) * 1 + 1; omega

/-- After the launch the second partial array holds each core's sum of row minima. -/
theorem final5 (c : Dev nD) : (dats m 0 c).arrAt 5 cfg0.N = G5 m c :=
  (dats m 0 c).arrAt_eq_of_cover 5 (G5 m c) (fun t hf => flushed5 m c t hf) cover5

end Cert.KernelIdeal.Final

end
-- ==== Proof.KRun.lean ====
/-
  The idealized kernel program's run, read: every execution ends with the array of the kernel's distances, the
  two scalars the host joins from the cores' partial results, and the arguments unchanged.
-/
import proofs.«147764_j11802570129617_2_alg».proof.Proof.KFinal

noncomputable section

namespace Cert.KernelIdeal.KRun

open Cert.KernelIdeal Cert.KernelIdeal.Gen Cert.KernelIdeal.Blocks Cert.KernelIdeal.Final Idealize.ShloMosaic Idealize.ShloMosaic.TcCoe Idealize.SL.Sem
open Idealize.ShloMosaic.ValueIdx Cert.Cdist

variable (m : (ℓ : Loc nD τ sig) → Buf (Elt Ideal) ℓ) (ρ : Dev nD → PrngReg)

/-- The first scalar: the host's join of the cores' column minima. -/
theorem tail9 (c : Dev nD) :
    (Pipeline.afterTail₀ cfgs (dats m) 0 (V0 m) [hostOps1] c main_v9 : FVec Ideal S_ .f32)
      = fun _ => kMeanColMin (argX m c) (argP m c) :=
  Cert.KernelIdeal.HostVal.tail_v9 m c (fun q v => coreColMin (argX m c) (argP m c) q v) (fun q v => by
    show ((dats m 0 c).arrAt 4 cfg0.N : FVec Ideal S2x1x512 .f32) (ix3 q (0 : Fin 1) v) = _
    rw [final4]; rfl)

/-- The second scalar: the host's join of the cores' sums of row minima. -/
theorem tail12 (c : Dev nD) :
    (Pipeline.afterTail₀ cfgs (dats m) 0 (V0 m) [hostOps1] c main_v12 : FVec Ideal S_ .f32)
      = fun _ => kMeanRowMin (argX m c) (argP m c) :=
  Cert.KernelIdeal.HostVal.tail_v12 m c (fun q => coreRowMinSum (argX m c) (argP m c) q) (fun q => by
    show ((dats m 0 c).arrAt 5 cfg0.N : FVec Ideal S2x1x1 .f32) (ix3 q (0 : Fin 1) (0 : Fin 1)) = _
    rw [final5]; rfl)

/-- The run. -/
theorem run : θ_run defs (onTc (τ := τ) (main (F := Ideal))) ⟨m, fun _ => 0, ρ⟩ fun r => ∀ c : Dev nD,
      r.2.mem ((c.tc : Thread nD τ).loc main_v5_0) = G3 m c
      ∧ r.2.mem ((c.tc : Thread nD τ).loc main_v9) = (fun _ => kMeanColMin (argX m c) (argP m c))
      ∧ r.2.mem ((c.tc : Thread nD τ).loc main_v12) = (fun _ => kMeanRowMin (argX m c) (argP m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 3).trans (final3 m c),
     ((h c).2 main_v9 (Pipeline.mem_restRefs_of main_v9 (by decide) (by decide))).trans (tail9 m c),
     ((h c).2 main_v12 (Pipeline.mem_restRefs_of main_v12 (by decide) (by decide))).trans (tail12 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KRun

end
-- ==== Proof.RefSpec.lean ====
/-
  The reference program's three results are the specification's three quantities: the array of distances
  sqrt (Σₖ (X b k - P v k)²), the mean over the codebook of the column minima, the mean over the batch of the row minima.
-/
import proofs.«147764_j11802570129617_2_alg».proof.Proof.Gen.ReferenceIdeal.Read
import proofs.«147764_j11802570129617_2_alg».proof.Proof.Spec
import Idealize.ShloMosaic.PureOps.Ideal.Laws

noncomputable section

namespace Cert.ReferenceIdeal.RefSpec

open Cert.ReferenceIdeal Cert.ReferenceIdeal.Gen Cert.ReferenceIdeal.Read Idealize.ShloMosaic Idealize.ShloMosaic.ValueIdx
open scoped BigOperators

/-- One squared difference: the two broadcasts of each argument read X at (b, k) and P at (v, k). -/
theorem sq_apply (X : FVec Ideal S8192x64 .f32) (P : FVec Ideal S512x64 .f32) (b : Fin 8192) (v : Fin 512) (k : Fin 64) :
    val_main_v5 (F := Ideal) X P (idx_main_v6 (ix2 b v) k)
      = (X (ix2 b k) - P (ix2 v k)) * (X (ix2 b k) - P (ix2 v k)) := by
  have eX : idx_main_v0 (idx_main_v2 (idx_main_v6 (ix2 b v) k)) = ix2 b k := by
    funext a; match a with | ⟨0, _⟩ => rfl | ⟨1, _⟩ => rfl
  have eP : idx_main_v1 (idx_main_v3 (idx_main_v6 (ix2 b v) k)) = ix2 v k := by
    funext a; match a with | ⟨0, _⟩ => rfl | ⟨1, _⟩ => rfl
  rw [val_main_v5_apply, val_main_v4_apply, val_main_v2_apply, val_main_v3_apply, val_main_v0_apply, val_main_v1_apply,
    eX, eP, Ideal.mulf_def, Ideal.subf_def]

/-- The reference's distance at (b, v). -/
theorem dist_eq (X : FVec Ideal S8192x64 .f32) (P : FVec Ideal S512x64 .f32) :
    val_main_v7 (F := Ideal) X P = fun i => Cert.Cdist.dist X P (i 0) (i 1) := by
  funext i
  obtain ⟨b, v, rfl⟩ : ∃ (b : Fin 8192) (v : Fin 512), i = ix2 b v := ⟨i 0, i 1, eq_ix2 i⟩
  -- the root of: the initial value +0.0, plus the sum over k of the squared differences
  rw [val_main_v7_apply, val_main_v6_apply, val_main_cst_apply, Ideal.hostUnary_sqrt_def, Ideal.ofBits_def,
    Cert.Consts.ofBits_zero, zero_add]
  unfold Cert.Cdist.dist Cert.Cdist.sqDist
  exact congrArg Ideal.sqrt (Finset.sum_congr rfl fun k _ => sq_apply X P b v k)

/-- The rank-1 indices of extent n are the coordinates. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {n : Nat} (f : (⟨1, ![n]⟩ : Shape).Idx → EReal) : ∑ i, f i = ∑ a : Fin n, f (ix1 a) := by
  rw [← Equiv.sum_comp (idxEquiv1 (n := n)).symm f]
  rfl

/-- Dropping the batch axis of [8192, 512] leaves [512]; dropping the codebook axis leaves [8192]. -/
theorem red0 : S8192x512.Reduces [0] S512 := by decide
theorem red1 : S8192x512.Reduces [1] S8192 := by decide

/-- The minimum over the batch axis from +inf, at column v, is the column minimum: the index over v with
    batch coordinate b inserted is (b, v). -/
theorem colMin_apply (X : FVec Ideal S8192x64 .f32) (P : FVec Ideal S512x64 .f32) (v : Fin 512) :
    val_main_v8 (F := Ideal) X P (ix1 v) = Cert.Cdist.colMin X P v := by
  unfold val_main_v8
  refine (Host.reduce_eq_fold_single (FloatOps.minimumf (F := Ideal) (φ := .f32)) (val_main_v7 (F := Ideal) X P)
    (val_main_cst_0 (F := Ideal)) reducesTo_S8192x512_S512_d0 red0 h_S_ (ix1 v)).trans ?_
  rw [val_main_cst_0_apply, Ideal.ofBits_def, Cert.Consts.ofBits_inf, dist_eq]
  unfold Cert.Cdist.colMin
  have hfun : ((fun i : S8192x512.Idx => Cert.Cdist.dist X P (i 0) (i 1)) ∘ red0.lift (ix1 v))
      = fun b => Cert.Cdist.dist X P b v := by
    funext b
    have e0 : red0.lift (ix1 v) b 0 = b := Fin.ext rfl
    have e1 : red0.lift (ix1 v) b 1 = v := Fin.ext rfl
    show Cert.Cdist.dist X P (red0.lift (ix1 v) b 0) (red0.lift (ix1 v) b 1) = _
    rw [e0, e1]
  rw [hfun]
  rfl

/-- The minimum over the codebook axis from +inf, at row b, is the row minimum: the index over b with
    codebook coordinate v inserted is (b, v). -/
theorem rowMin_apply (X : FVec Ideal S8192x64 .f32) (P : FVec Ideal S512x64 .f32) (b : Fin 8192) :
    val_main_v11 (F := Ideal) X P (ix1 b) = Cert.Cdist.rowMin X P b := by
  unfold val_main_v11
  refine (Host.reduce_eq_fold_single (FloatOps.minimumf (F := Ideal) (φ := .f32)) (val_main_v7 (F := Ideal) X P)
    (val_main_cst_3 (F := Ideal)) reducesTo_S8192x512_S8192_d1 red1 h_S_ (ix1 b)).trans ?_
  rw [val_main_cst_3_apply, Ideal.ofBits_def, Cert.Consts.ofBits_inf, dist_eq]
  unfold Cert.Cdist.rowMin
  have hfun : ((fun i : S8192x512.Idx => Cert.Cdist.dist X P (i 0) (i 1)) ∘ red1.lift (ix1 b))
      = fun v => Cert.Cdist.dist X P b v := by
    funext v
    have e0 : red1.lift (ix1 b) v 0 = b := Fin.ext rfl
    have e1 : red1.lift (ix1 b) v 1 = v := Fin.ext rfl
    show Cert.Cdist.dist X P (red1.lift (ix1 b) v 0) (red1.lift (ix1 b) v 1) = _
    rw [e0, e1]
  rw [hfun]
  rfl

/-- The reference's first scalar: the mean of the column minima. -/
theorem meanColMin_eq (X : FVec Ideal S8192x64 .f32) (P : FVec Ideal S512x64 .f32) :
    val_main_v10 (F := Ideal) X P = fun _ => Cert.Cdist.meanColMin X P := by
  funext i
  -- the quotient by the literal 512.0 of: the initial value +0.0, plus the sum over the codebook of the minima
  rw [val_main_v10_apply, val_main_v9_apply, val_main_cst_1_apply, val_main_cst_2_apply, Ideal.hostDivf_def]
  simp only [Ideal.ofBits_def]
  rw [Cert.Consts.ofBits_zero, zero_add, sum_idx1]
  unfold Cert.Cdist.meanColMin
  have hs : ∑ a : Fin 512, val_main_v8 (F := Ideal) X P (ix1 a) = ∑ v : Fin 512, Cert.Cdist.colMin X P v :=
    Finset.sum_congr rfl fun v _ => colMin_apply X P v
  rw [hs]

/-- The reference's second scalar: the mean of the row minima. -/
theorem meanRowMin_eq (X : FVec Ideal S8192x64 .f32) (P : FVec Ideal S512x64 .f32) :
    val_main_v13 (F := Ideal) X P = fun _ => Cert.Cdist.meanRowMin X P := by
  funext i
  -- the quotient by the literal 8192.0 of: the initial value +0.0, plus the sum over the batch of the minima
  rw [val_main_v13_apply, val_main_v12_apply, val_main_cst_4_apply, val_main_cst_5_apply, Ideal.hostDivf_def]
  simp only [Ideal.ofBits_def]
  rw [Cert.Consts.ofBits_zero, zero_add, sum_idx1]
  unfold Cert.Cdist.meanRowMin
  have hs : ∑ a : Fin 8192, val_main_v11 (F := Ideal) X P (ix1 a) = ∑ b : Fin 8192, Cert.Cdist.rowMin X P b :=
    Finset.sum_congr rfl fun b _ => rowMin_apply X P b
  rw [hs]

end Cert.ReferenceIdeal.RefSpec

end
-- ==== Proof.FinitePre.lean ====
/-
  The precondition says that every entry of both argument arrays is smaller in absolute value than +inf;
  over the extended reals such an entry is a real number.
-/
import proofs.«147764_j11802570129617_2_alg».proof.Proof.Gen.Pre_finite_inputs
import proofs.«147764_j11802570129617_2_alg».proof.Proof.Spec
import Idealize.ShloMosaic.Lib.ReduceAll

noncomputable section

namespace Cert.FinitePre

open Idealize.ShloMosaic Idealize.ShloMosaic.ValueIdx

/-- An extended real whose absolute value max x (-x) is strictly below the top element is a real number:
    at the top element the maximum is the top element, at the bottom element its negation is. -/
theorem real_of_abs_lt (x : EReal)
    (h : Ideal.cmp .olt (max x (-x)) (Ideal.ofBits .f32 0x7F800000#32) = 1#1) : ∃ r : ℝ, x = (r : EReal) := by
  rw [Cert.Consts.ofBits_inf] at h
  unfold Ideal.cmp at h
  induction x using EReal.rec with
  | bot => simp at h
  | coe r => exact ⟨r, rfl⟩
  | top => simp at h

/-- Where the precondition's predicate is all ones, every entry of X and of P is a real number. -/
theorem finite_of_pre (X : FVec Ideal Cert.Pre_finite_inputs.S8192x64 .f32) (P : FVec Ideal Cert.Pre_finite_inputs.S512x64 .f32)
    (h : Cert.Pre_finite_inputs.fn (F := Ideal) X P = fun _ => 1#1) : Cert.Cdist.Finite X P := by
  -- the scalar shape has one index
  haveI : Subsingleton Cert.Pre_finite_inputs.S_.Idx := ⟨fun a b => funext fun d => d.elim0⟩
  -- the predicate at its one index is the conjunction of the two arrays' "all entries pass"
  have h0 := congrFun h ValueIdx.ix0
  dsimp only [Cert.Pre_finite_inputs.fn] at h0
  obtain ⟨hX, hP⟩ := IntOp.andi_eq_one.1 h0
  -- a conjunction over all entries that is one has a one at every entry, and the entry's test is |x| < +inf
  refine ⟨fun i => real_of_abs_lt (X i) ?_, fun i => real_of_abs_lt (P i) ?_⟩
  · exact Host.reduce_andi_all _ _ _ _ _ hX i
  · exact Host.reduce_andi_all _ _ _ _ _ hP i

end Cert.FinitePre

end
-- ==== Proof.lean ====
/-
  Pairwise Euclidean distances between 8192 points X b and 512 codebook vectors P v in 64 dimensions, with the
  mean over the codebook of the nearest-point distances and the mean over the points of the nearest-codeword
  distances.  The reference takes d(b, v) = sqrt (Σₖ (X b k - P v k)²) directly.  The kernel expands the square,
  |x|² + |p|² - 2 x·p, with the cross term a matrix product, clamps at zero and takes the root; it visits the
  points in four tiles of 2048 rows, two tiles per core, keeping per core a running row of column minima (from
  +inf) and a running sum of row minima (from 0), and the host joins the two cores and scales.

  Over the extended reals the two programs agree wherever every input entry is a real number, which the
  precondition says: the expansion of the square is an identity of real numbers and its value is not negative,
  so the clamp does nothing; a minimum over all rows is the minimum of the tiles' minima and a sum over all rows
  the sum of the tiles' sums, whatever the grouping; and the kernel's scale 2^-13 is the reciprocal of the
  reference's divisor 8192.  No operation of the kernel is rewritten for that reading, so the idealized kernel is the kernel's own text.
-/
import proofs.«147764_j11802570129617_2_alg».proof.Defs
import proofs.«147764_j11802570129617_2_alg».proof.Proof.Gen.Kernel
import proofs.«147764_j11802570129617_2_alg».proof.Proof.Gen.Kernel.Skeleton
import proofs.«147764_j11802570129617_2_alg».proof.Proof.Gen.Kernel.Launch
import proofs.«147764_j11802570129617_2_alg».proof.Proof.Gen.Kernel.Points
import proofs.«147764_j11802570129617_2_alg».proof.Proof.Gen.Kernel.Frame
import proofs.«147764_j11802570129617_2_alg».proof.Proof.Gen.KernelIdeal
import proofs.«147764_j11802570129617_2_alg».proof.Proof.Gen.KernelIdeal.Skeleton
import proofs.«147764_j11802570129617_2_alg».proof.Proof.Gen.KernelIdeal.Launch
import proofs.«147764_j11802570129617_2_alg».proof.Proof.Gen.KernelIdeal.Points
import proofs.«147764_j11802570129617_2_alg».proof.Proof.Gen.KernelIdeal.Frame
import proofs.«147764_j11802570129617_2_alg».proof.Proof.Gen.ReferenceIdeal
import proofs.«147764_j11802570129617_2_alg».proof.Proof.Gen.ReferenceIdeal.Run
import proofs.«147764_j11802570129617_2_alg».proof.Proof.Gen.ReferenceIdeal.Read
import proofs.«147764_j11802570129617_2_alg».proof.Proof.Gen.Pre_finite_inputs
import proofs.«147764_j11802570129617_2_alg».proof.Proof.KRun
import proofs.«147764_j11802570129617_2_alg».proof.Proof.RefSpec
import proofs.«147764_j11802570129617_2_alg».proof.Proof.FinitePre
import Idealize.ShloMosaic.Adequacy
import Idealize.ShloMosaic.Init

noncomputable section

namespace Cert.Proof

open Idealize.ShloMosaic Idealize.SL.Sem
open Cert.KernelIdeal.Blocks (argX argP)

/-- The kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => ⟨(h c).2.2.2.1, (h c).2.2.2.2⟩)
    (Cert.ReferenceIdeal.Value.run (F := Ideal) m ρ)

/-- No operation of the kernel is rewritten for the reading over the extended reals. -/
theorem preserves : Cert.preserves_Kernel_KernelIdeal := trivial

/-- Both idealized programs end with the same three results: the kernel's in its expanded, tiled form, the
    reference's in its direct form, equal because the inputs are real numbers. -/
theorem algebraic : Cert.algebraic_KernelIdeal_ReferenceIdeal := by
  intro m ρ m' ρ' hpre hagree
  refine ⟨fun c => Cert.KernelIdeal.Final.G3 m c,
    fun c => fun _ => Cert.Cdist.kMeanColMin (argX m c) (argP m c),
    fun c => fun _ => Cert.Cdist.kMeanRowMin (argX m c) (argP m c),
    Cert.KernelIdeal.KRun.run m ρ, ?_⟩
  refine (θ_run Cert.ReferenceIdeal.defs _ _).mono (fun _ h c => ?_) (Cert.ReferenceIdeal.Value.run (F := Ideal) m' ρ')
  have hfin : Cert.Cdist.Finite (argX m c) (argP m c) := Cert.FinitePre.finite_of_pre _ _ (hpre c)
  obtain ⟨h7, h10, h13, ha0, ha1⟩ := h c
  refine ⟨h7.trans ?_, h10.trans ?_, h13.trans ?_, ha0, ha1⟩
  · rw [Cert.ReferenceIdeal.Read.val_main_v7_eq, Cert.ReferenceIdeal.RefSpec.dist_eq, (hagree c).1, (hagree c).2]
    funext i
    exact (Cert.Cdist.kDist_eq _ _ hfin _ _).symm
  · rw [Cert.ReferenceIdeal.Read.val_main_v10_eq, Cert.ReferenceIdeal.RefSpec.meanColMin_eq, (hagree c).1, (hagree c).2]
    funext _
    exact (Cert.Cdist.kMeanColMin_eq _ _ hfin).symm
  · rw [Cert.ReferenceIdeal.Read.val_main_v13_eq, Cert.ReferenceIdeal.RefSpec.meanRowMin_eq, (hagree c).1, (hagree c).2]
    funext _
    exact (Cert.Cdist.kMeanRowMin_eq _ _ hfin).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
